-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S128x101 : Shape := ⟨2, ![128, 101]⟩
abbrev S_ : Shape := ⟨0, ![]⟩

class Facts : Prop where
  bcast_S_S128x101 : S_.BroadcastsInDim S128x101 (![] : Fin 0 → Fin S128x101.rank)
  reducesTo_S128x101_S_d0_1 : S128x101.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : IVec S1048576 32) (main_arg1 : FVec F S128x101 .f32) : IVec S_ 1 :=
  let main_v0 : FVec F S128x101 .f32 := Host.absf main_arg1
  let main_cst : FVec F S_ .f32 := constant S_ .f32 0x7F800000#32
  let main_v1 : FVec F S128x101 .f32 := broadcastInDim S128x101 ![] bcast_S_S128x101 main_cst
  let main_v2 : IVec S128x101 1 := cmpf .olt main_v0 main_v1
  let main_c : IVec S_ 1 := constantI S_ 1 1#1
  let main_v3 : IVec S_ 1 := (fun x v => Host.reduce IntOp.andi x v reducesTo_S128x101_S_d0_1 h_S_) main_v2 main_c
  let main_c_0 : IVec S_ 32 := constantI S_ 32 0#32
  let main_v4 : IVec S1048576 32 := broadcastInDim S1048576 ![] bcast_S_S1048576 main_c_0
  let main_v5 : IVec S1048576 1 := cmpi .sge main_arg0 main_v4
  let main_c_1 : IVec S_ 32 := constantI S_ 32 101#32
  let main_v6 : IVec S1048576 32 := broadcastInDim S1048576 ![] bcast_S_S1048576 main_c_1
  let main_v7 : IVec S1048576 1 := cmpi .slt main_arg0 main_v6
  let main_v8 : IVec S1048576 1 := andi main_v5 main_v7
  let main_c_2 : IVec S_ 1 := constantI S_ 1 1#1
  let main_v9 : IVec S_ 1 := (fun x v => Host.reduce IntOp.andi x v reducesTo_S1048576_S_d0 h_S_) main_v8 main_c_2
  let main_v10 : IVec S_ 1 := andi main_v3 main_v9
  main_v10
-- ==== Kernel.lean ====
abbrev S1048576 : Shape := ⟨1, ![1048576]⟩
abbrev S128x101 : Shape := ⟨2, ![128, 101]⟩
abbrev S_ : Shape := ⟨0, ![]⟩
abbrev S128x128 : Shape := ⟨2, ![128, 128]⟩
abbrev S128x256 : Shape := ⟨2, ![128, 256]⟩
abbrev S1048576x128 : Shape := ⟨2, ![1048576, 128]⟩
abbrev S8192 : Shape := ⟨1, ![8192]⟩
abbrev S8192x128 : Shape := ⟨2, ![8192, 128]⟩
abbrev S1x8192 : Shape := ⟨2, ![1, 8192]⟩
abbrev S128x8192 : Shape := ⟨2, ![128, 8192]⟩
abbrev S256x8192 : Shape := ⟨2, ![256, 8192]⟩

abbrev nBuf : Space → Nat
  | .hbm => 22
  | .vmem => 5
  | .smem => 0
  | _ => 0

abbrev bufTy : (tb : Table) → Fin (tcTables nBuf tb) → BufTy
  | .hbm, ⟨0, _⟩ => ⟨S1048576, .i32⟩
  | .hbm, ⟨1, _⟩ => ⟨S128x101, .f32⟩
  | .hbm, ⟨2, _⟩ => ⟨S128x101, .bf16⟩
  | .hbm, ⟨3, _⟩ => ⟨S128x101, .f32⟩
  | .hbm, ⟨4, _⟩ => ⟨S128x101, .f32⟩
  | .hbm, ⟨5, _⟩ => ⟨S128x101, .bf16⟩
  | .hbm, ⟨6, _⟩ => ⟨S_, .i32⟩
  | .hbm, ⟨7, _⟩ => ⟨S_, .bf16⟩
  | .hbm, ⟨8, _⟩ => ⟨S128x128, .bf16⟩
  | .hbm, ⟨9, _⟩ => ⟨S_, .i32⟩
  | .hbm, ⟨10, _⟩ => ⟨S_, .bf16⟩
  | .hbm, ⟨11, _⟩ => ⟨S128x128, .bf16⟩
  | .hbm, ⟨12, _⟩ => ⟨S128x256, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576x128, .f32⟩
  | .local _ .vmem, ⟨0, _⟩ => ⟨S8192, .i32⟩
  | .local _ .vmem, ⟨1, _⟩ => ⟨S8192, .i32⟩
  | .local _ .vmem, ⟨2, _⟩ => ⟨S128x256, .bf16⟩
  | .local _ .vmem, ⟨3, _⟩ => ⟨S8192x128, .f32⟩
  | .local _ .vmem, ⟨4, _⟩ => ⟨S8192x128, .f32⟩
  | _, _ => ⟨S1048576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_c : Ref sig .tc := ⟨.hbm, 6, rfl⟩
abbrev main_call0_call0_v0 : Ref sig .tc := ⟨.hbm, 7, rfl⟩
abbrev main_call0_v4 : Ref sig .tc := ⟨.hbm, 8, rfl⟩
abbrev main_call0_c_0 : Ref sig .tc := ⟨.hbm, 9, rfl⟩
abbrev main_call0_call1_v0 : Ref sig .tc := ⟨.hbm, 10, rfl⟩
abbrev main_call0_v5 : Ref sig .tc := ⟨.hbm, 11, rfl⟩
abbrev main_call0_v6 : Ref sig .tc := ⟨.hbm, 12, rfl⟩
abbrev main_call0_c_1 : Ref sig .tc := ⟨.hbm, 13, rfl⟩
abbrev main_call0_c_2 : Ref sig .tc := ⟨.hbm, 14, rfl⟩
abbrev main_call0_call2_v0 : Ref sig .tc := ⟨.hbm, 15, rfl⟩
abbrev main_call0_call2_v1 : Ref sig .tc := ⟨.hbm, 16, rfl⟩
abbrev main_call0_call2_v2 : Ref sig .tc := ⟨.hbm, 17, rfl⟩
abbrev main_call0_call2_v3 : Ref sig .tc := ⟨.hbm, 18, rfl⟩
abbrev main_call0_call2_v4 : Ref sig .tc := ⟨.hbm, 19, rfl⟩
abbrev main_call0_v7 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  pads_S128x101_S128x128_000_0270 : S128x101.Pads (![0, 0] : Fin 2 → Nat) ![0, 27] ![0, 0] S128x128
  h_S_ : 0 < S_.numel
  concatenates_S128x128_S128x128_S128x256_d1 : Shape.Concatenates [S128x128, S128x128] S128x256 1
  bcast_S_S1048576 : S_.BroadcastsInDim S1048576 (![] : Fin 0 → Fin S1048576.rank)
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  iota_S128x8192_d0_w32 : S128x8192.Iotas .tc 32 [0]
  broadcasts_S1x8192_S128x8192 : S1x8192.Broadcasts S128x8192
  natLt_1_32 : 1 < 32
  concatenates_S128x8192_S128x8192_S256x8192_d0 : Shape.Concatenates [S128x8192, S128x8192] S256x8192 0
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x128_S8192x128_0_0 : ∀ a, (![0, 0] : Fin 2 → Nat) a + S8192x128.size a ≤ S8192x128.size a
  h_S8192x128 : 0 < S8192x128.numel
  dot_S256x8192_S128x256_S8192x128_0_1_1_0_n_n_wf : DotDims.WF S256x8192 S128x256 S8192x128 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S1048576.size a
  hwx0_0 : ∀ i : grid0.Coords, EltTy.bits .i32 = 32 ∨ (Rect.block (s := S1048576) S8192.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S1048576x128.size a
  hwx0_2 : ∀ i : grid0.Coords, EltTy.bits .f32 = 32 ∨ (Rect.block (s := S1048576x128) S8192x128.size (cc0_transform_2 i) (hinb0_2 i)).WholeWords (EltTy.packing .f32)

variable [Facts₀]

def dot_S256x8192_S128x256_S8192x128_0_1_1_0_n_n : DotDims S256x8192 S128x256 S8192x128 where
  lhsContracting := [0]
  rhsContracting := [1]
  lhsNonContracting := [1]
  rhsNonContracting := [0]
  lhsBatch := []
  rhsBatch := []
  wf := dot_S256x8192_S128x256_S8192x128_0_1_1_0_n_n_wf

abbrev win0_0 : Pipeline.Window sig grid0 :=
  Pipeline.Window.ofSpec (Memref.whole main_call0_v7) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576 : Shape := ⟨1, ![1048576]⟩
abbrev S128x101 : Shape := ⟨2, ![128, 101]⟩
abbrev S101x128 : Shape := ⟨2, ![101, 128]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S1048576x128 : Shape := ⟨2, ![1048576, 128]⟩

abbrev nBuf : Space → Nat
  | .hbm => 34
  | .vmem => 0
  | .smem => 0
  | _ => 0

abbrev bufTy : (tb : Table) → Fin (tcTables nBuf tb) → BufTy
  | .hbm, ⟨0, _⟩ => ⟨S1048576, .i32⟩
  | .hbm, ⟨1, _⟩ => ⟨S128x101, .f32⟩
  | .hbm, ⟨2, _⟩ => ⟨S101x128, .f32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S1, .i32⟩
  | .hbm, ⟨12, _⟩ => ⟨S_, .i32⟩
  | .hbm, ⟨13, _⟩ => ⟨S1048576x1, .i32⟩
  | .hbm, ⟨14, _⟩ => ⟨S1048576x1, .i1⟩
  | .hbm, ⟨15, _⟩ => ⟨S1x1, .i32⟩
  | .hbm, ⟨16, _⟩ => ⟨S1048576x1, .i32⟩
  | .hbm, ⟨17, _⟩ => ⟨S1048576x1, .i1⟩
  | .hbm, ⟨18, _⟩ => ⟨S1048576x1, .i1⟩
  | .hbm, ⟨19, _⟩ => ⟨S_, .i1⟩
  | .hbm, ⟨20, _⟩ => ⟨S1048576, .i1⟩
  | .hbm, ⟨21, _⟩ => ⟨S1048576x128, .f32⟩
  | .hbm, ⟨22, _⟩ => ⟨S1048576x128, .i1⟩
  | .hbm, ⟨23, _⟩ => ⟨S_, .f32⟩
  | .hbm, ⟨24, _⟩ => ⟨S1048576x128, .f32⟩
  | .hbm, ⟨25, _⟩ => ⟨S1048576x128, .f32⟩
  | .hbm, ⟨26, _⟩ => ⟨S1048576x128, .f32⟩
  | .hbm, ⟨27, _⟩ => ⟨S1048576x128, .f32⟩
  | .hbm, ⟨28, _⟩ => ⟨S_, .f32⟩
  | .hbm, ⟨29, _⟩ => ⟨S1048576x128, .f32⟩
  | .hbm, ⟨30, _⟩ => ⟨S1048576x128, .f32⟩
  | .hbm, ⟨31, _⟩ => ⟨S_, .f32⟩
  | .hbm, ⟨32, _⟩ => ⟨S1048576x128, .f32⟩
  | .hbm, ⟨33, _⟩ => ⟨S1048576x128, .f32⟩
  | _, _ => ⟨S1048576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩

abbrev nD : Nat := 1
abbrev τ : Topo := Topo.v7x

variable {F : FTy → Type} [FloatOps F]

class Facts₀ : Prop where
  transposes_S128x101_S101x128_1_0 : S128x101.Transposes [1, 0] S101x128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S1048576x128_0 : S1048576.BroadcastsInDim S1048576x128 (![0] : Fin 1 → Fin S1048576x128.rank)
  bcast_S_S1048576x128 : S_.BroadcastsInDim S1048576x128 (![] : Fin 0 → Fin S1048576x128.rank)
  gather_S101x128_S1048576x1_S1048576x128_1_0_n_n_0_1_1128_wf : GatherDims.WF S101x128 S1048576x1 S1048576x128 [1] [0] [] [0] [] 1 ![1, 128]

variable [Facts₀]

def gather_S101x128_S1048576x1_S1048576x128_1_0_n_n_0_1_1128 : GatherDims S101x128 S1048576x1 S1048576x128 where
  offsetDims := [1]
  collapsedSliceDims := [0]
  operandBatchingDims := []
  startIndicesBatchingDims := []
  startIndexMap := [0]
  indexVectorDim := 1
  sliceSizes := ![1, 128]
  wf := gather_S101x128_S1048576x1_S1048576x128_1_0_n_n_0_1_1128_wf

class Facts : Prop extends Facts₀ where

variable [Facts]
-- ==== Proof.PreFacts.lean ====
/-
  What the precondition says, element by element.

  The precondition is the conjunction of two "for all" tests, each printed as a reduction by "and" from
  the constant true into a single word: every table entry has absolute value below +infinity, and
  every label is at least 0 and below 101 as a signed word. If the conjunction is true then each
  reduction is true, so each of its elements is: every table entry is a real number (an extended
  real whose absolute value is below the top element is neither infinity), and every label, read as a
  signed integer, lies in [0, 101).
-/
import proofs.«430570_j2662879723598_3_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.LabelLogistic.PreFacts

open Idealize.ShloMosaic Idealize.ShloMosaic.ValueIdx Cert.Pre_finite_inputs

instance : Subsingleton S_.Idx := ⟨fun a b => funext fun d => d.elim0⟩

/-- An extended real whose absolute value is below the pattern of +infinity is a real number. -/
theorem real_of_abs_lt (w : EReal)
    (h : Ideal.cmp .olt (max w (-w)) (Ideal.ofBits .f32 0x7F800000#32) = 1#1) : ∃ r : ℝ, w = (r : EReal) := by
  have htop : Ideal.ofBits .f32 0x7F800000#32 = (⊤ : EReal) := by simp [Ideal.ofBits, Ideal.ieee]
  rw [htop] at h
  unfold Ideal.cmp at h
  simp only at h
  have hlt : max w (-w) < ⊤ := by
    by_contra hc
    rw [decide_eq_false hc] at h
    exact absurd h (by decide)
  induction w using EReal.rec with
  | bot => simp at hlt
  | top => simp at hlt
  | coe r => exact ⟨r, rfl⟩

/-- A word that passes "0 ≤ · (signed)" and "· < 101 (signed)" is an integer in [0, 101). -/
theorem range_of_tests (w : BitVec 32) (h0 : IntOp.cmpi .sge w 0#32 = 1#1) (h1 : IntOp.cmpi .slt w 101#32 = 1#1) :
    0 ≤ w.toInt ∧ w.toInt < 101 := by
  unfold IntOp.cmpi at h0 h1
  simp only at h0 h1
  have a0 : BitVec.sle 0#32 w = true := by
    by_contra hc
    rw [Bool.not_eq_true] at hc
    rw [hc] at h0
    exact absurd h0 (by decide)
  have a1 : BitVec.slt w 101#32 = true := by
    by_contra hc
    rw [Bool.not_eq_true] at hc
    rw [hc] at h1
    exact absurd h1 (by decide)
  rw [BitVec.sle_eq_decide, decide_eq_true_eq] at a0
  rw [BitVec.slt_eq_decide, decide_eq_true_eq] at a1
  have e0 : (0#32 : BitVec 32).toInt = 0 := by decide
  have e1 : (101#32 : BitVec 32).toInt = 101 := by decide
  rw [e0] at a0
  rw [e1] at a1
  exact ⟨a0, a1⟩

/-- The precondition, read back: every label in [0, 101) signed, every table entry a real number. -/
theorem of_pre (x : IVec S1048576 32) (W : FVec Ideal S128x101 .f32)
    (h : Cert.Pre_finite_inputs.fn (F := Ideal) x W = fun _ => 1#1) :
    (∀ b : Fin 1048576, 0 ≤ (x (ix1 b)).toInt ∧ (x (ix1 b)).toInt < 101)
      ∧ (∀ j : S128x101.Idx, ∃ r : ℝ, W j = (r : EReal)) := by
  have e := congrFun h ix0
  dsimp only [Cert.Pre_finite_inputs.fn] at e
  obtain ⟨e1, e2⟩ := IntOp.andi_eq_one.1 e
  refine ⟨fun b => ?_, fun j => ?_⟩
  · have hb := Host.reduce_andi_all _ _ _ _ ix0 e2 (ix1 b)
    obtain ⟨h0, h1⟩ := IntOp.andi_eq_one.1 hb
    exact range_of_tests _ h0 h1
  · have hj := Host.reduce_andi_all _ _ _ _ ix0 e1 j
    exact real_of_abs_lt (W j) hj

end Cert.LabelLogistic.PreFacts

end
-- ==== Proof.Words.lean ====
/-
  Signed 32-bit words in the label range.

  A word whose signed value lies in [0, 101) has that value as its unsigned value too, is left alone by
  clamping into [0, 100] (the larger of 0 and the word, then the smaller of 100 and that), and equals the
  word of a row number k < 128 exactly when its value is k.
-/
import Idealize.ShloMosaic.PureOps.Float
import Mathlib.Tactic.Linarith

namespace Cert.LabelLogistic.Words

open Idealize.ShloMosaic

/-- In the label range the unsigned value is the signed value. -/
theorem toNat_of_range (w : BitVec 32) (h0 : 0 ≤ w.toInt) (h1 : w.toInt < 101) :
    w.toNat < 101 ∧ (w.toNat : Int) = w.toInt := by
  have e := BitVec.toInt_eq_toNat_cond w
  have hw := w.isLt
  split at e <;> omega

/-- Clamping a word of the label range into [0, 100] returns it. -/
theorem clamp_of_range (w : BitVec 32) (h0 : 0 ≤ w.toInt) (h1 : w.toInt < 101) :
    IntOp.minsi 100#32 (IntOp.maxsi 0#32 w) = w := by
  have e0 : (0#32 : BitVec 32).toInt = 0 := by decide
  have e1 : (100#32 : BitVec 32).toInt = 100 := by decide
  have hmax : IntOp.maxsi 0#32 w = w := by
    unfold IntOp.maxsi
    rw [if_neg]
    rw [BitVec.slt_iff_toInt_lt, e0]
    omega
  rw [hmax]
  unfold IntOp.minsi
  rw [if_neg]
  rw [BitVec.slt_iff_toInt_lt, e1]
  omega

/-- The word of a row number below 128 equals a word of value n exactly when the row number is n. -/
theorem ofNat_eq_iff (k : ℕ) (hk : k < 128) (w : BitVec 32) : BitVec.ofNat 32 k = w ↔ k = w.toNat := by
  constructor
  · intro h
    have := congrArg BitVec.toNat h
    rw [BitVec.toNat_ofNat, Nat.mod_eq_of_lt (by omega)] at this
    exact this
  · intro h
    apply BitVec.eq_of_toNat_eq
    rw [BitVec.toNat_ofNat, Nat.mod_eq_of_lt (by omega)]
    exact h

end Cert.LabelLogistic.Words
-- ==== Proof.KernelHost.lean ====
/-
  The two arrays the launched region reads, as functions of the arguments.

  Before the launch the host clamps every label into [0, 100] (signed), and builds a 128 × 256 table whose
  left half is W with 27 zero columns appended and whose right half is W − W (W narrowed, widened back and
  subtracted from W: format changes are the identity on extended reals) with 27 zero columns appended.
  Read at an index: a label of the range [0, 101) is found unchanged; column n < 101 of the left half of
  row o is W[o, n], and column 128 + n is W[o, n] − W[o, n].
-/
import proofs.«430570_j2662879723598_3_alg».proof.Proof.Gen.KernelIdeal.Frame
import proofs.«430570_j2662879723598_3_alg».proof.Proof.Words
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- The labels clamped into [0, 100]: the smaller of 100 and (the larger of 0 and the label), signed. -/
def clampLabels (x : IVec S1048576 32) : IVec S1048576 32 :=
  minsi (broadcastInDim S1048576 ![] bcast_S_S1048576 (id (constantI S_ 32 100#32)))
    (maxsi (broadcastInDim S1048576 ![] bcast_S_S1048576 (id (constantI S_ 32 0#32))) x)

/-- The left half: W narrowed, 27 zero columns appended. -/
def leftHalf (W : FVec Ideal S128x101 .f32) : FVec Ideal S128x128 .bf16 :=
  pad S128x128 ![0, 0] ![0, 27] ![0, 0] (truncf .bf16 W bitsLt_bf16_f32) (sitofp .bf16 (constantI S_ 32 0#32))
    pads_S128x101_S128x128_000_0270 h_S_

/-- The right half: W minus (W narrowed and widened back), narrowed, 27 zero columns appended. -/
def rightHalf (W : FVec Ideal S128x101 .f32) : FVec Ideal S128x128 .bf16 :=
  pad S128x128 ![0, 0] ![0, 27] ![0, 0]
    (truncf .bf16 (subf W (extf .f32 (truncf .bf16 W bitsLt_bf16_f32) bitsLt_bf16_f32)) bitsLt_bf16_f32)
    (sitofp .bf16 (constantI S_ 32 0#32)) pads_S128x101_S128x128_000_0270 h_S_

/-- The 128 × 256 table: the two halves side by side. -/
def splitTable (W : FVec Ideal S128x101 .f32) : FVec Ideal S128x256 .bf16 :=
  concatenate S128x256 1 [⟨S128x128, leftHalf W⟩, ⟨S128x128, rightHalf W⟩] concatenates_S128x128_S128x128_S128x256_d1

variable (m : (ℓ : Loc nD τ sig) → Buf (Elt Ideal) ℓ)

/-- The region finds the clamped labels in the array of its first window. -/
theorem labels_found (c : Dev nD) :
    (V m c main_call0_v7 : IVec S1048576 32) = clampLabels (m ((c : Thread nD τ).loc main_arg0)) := by
  dsimp only [Gen.V, Gen.hostOps0]
  after_results
  rfl

/-- The region finds the two-half table in the array of its second window. -/
theorem table_found (c : Dev nD) :
    (V m c main_call0_v6 : FVec Ideal S128x256 .bf16) = splitTable (m ((c : Thread nD τ).loc main_arg1)) := by
  dsimp only [Gen.V, Gen.hostOps0]
  after_results
  rfl

/-- A label in the range [0, 101) is found unchanged. -/
theorem clampLabels_apply (x : IVec S1048576 32) (b : Fin 1048576)
    (h0 : 0 ≤ (x (ix1 b)).toInt) (h1 : (x (ix1 b)).toInt < 101) : clampLabels x (ix1 b) = x (ix1 b) := by
  simp only [clampLabels, minsi, maxsi, broadcastInDim, constantI, id]
  exact Cert.LabelLogistic.Words.clamp_of_range _ h0 h1

/-- Entry (o, n) of the left half, n < 101, is W[o, n]. -/
theorem leftHalf_apply (W : FVec Ideal S128x101 .f32) (o : Fin 128) (n : Fin 101) :
    leftHalf W (ix2 o (⟨n.val, by omega⟩ : Fin 128)) = W (ix2 o n) := by
  unfold leftHalf
  refine (pad_apply_of_inside _ _ _ _ _ _ _ _ (ix2 o n) fun a => ?_).trans rfl
  match a with
  | ⟨0, _⟩ => show o.val = 0 + o.val * (0 + 1); omega
  | ⟨1, _⟩ => show n.val = 0 + n.val * (0 + 1); omega

/-- Entry (o, n) of the right half, n < 101, is W[o, n] − W[o, n]. -/
theorem rightHalf_apply (W : FVec Ideal S128x101 .f32) (o : Fin 128) (n : Fin 101) :
    rightHalf W (ix2 o (⟨n.val, by omega⟩ : Fin 128)) = W (ix2 o n) - W (ix2 o n) := by
  unfold rightHalf
  refine (pad_apply_of_inside _ _ _ _ _ _ _ _ (ix2 o n) fun a => ?_).trans rfl
  match a with
  | ⟨0, _⟩ => show o.val = 0 + o.val * (0 + 1); omega
  | ⟨1, _⟩ => show n.val = 0 + n.val * (0 + 1); omega

/-- Column n < 101 of row o of the table is W[o, n]. -/
theorem splitTable_left (W : FVec Ideal S128x101 .f32) (o : Fin 128) (n : Fin 101) :
    splitTable W (ix2 o (⟨n.val, by omega⟩ : Fin 256)) = W (ix2 o n) := by
  unfold splitTable
  refine (concatenate_apply_piece (t := S128x256) 1 [⟨S128x128, leftHalf W⟩, ⟨S128x128, rightHalf W⟩] _ _ 0 (Nat.zero_lt_succ _) S128x128 (leftHalf W) rfl rfl 0 rfl
    (ix2 o (⟨n.val, by omega⟩ : Fin 128)) (fun b hb => ?_) ?_).trans (leftHalf_apply W o n)
  · match b with
    | ⟨0, _⟩ => rfl
    | ⟨1, _⟩ => exact absurd rfl hb
  · show 0 + n.val = n.val; omega

/-- Column 128 + n, n < 101, of row o of the table is W[o, n] − W[o, n]. -/
theorem splitTable_right (W : FVec Ideal S128x101 .f32) (o : Fin 128) (n : Fin 101) :
    splitTable W (ix2 o (⟨128 + n.val, by omega⟩ : Fin 256)) = W (ix2 o n) - W (ix2 o n) := by
  unfold splitTable
  refine (concatenate_apply_piece (t := S128x256) 1 [⟨S128x128, leftHalf W⟩, ⟨S128x128, rightHalf W⟩] _ _ 1 (Nat.succ_lt_succ (Nat.zero_lt_succ _)) S128x128 (rightHalf W) rfl rfl 128 rfl
    (ix2 o (⟨n.val, by omega⟩ : Fin 128)) (fun b hb => ?_) ?_).trans (rightHalf_apply W o n)
  · match b with
    | ⟨0, _⟩ => rfl
    | ⟨1, _⟩ => exact absurd rfl hb
  · show 128 + n.val = 128 + n.val; rfl

end Cert.KernelIdeal.HostSide

end
-- ==== Proof.Spec.lean ====
/-
  The function both programs compute, and the two laws that join them.

  Inputs: a vector of 1048576 class labels (32-bit words) and a table W of 128 rows by 101 classes.
  Result: for sample b and output feature o, the logistic function of W[o, label b].

  One program reaches W[o, label] by contracting a 256-long indicator (the label's indicator
  written twice, once per half) against the row [W[o, ·] padded to 128 | (W − W)[o, ·] padded to 128],
  and applies the logistic function as (1/2)(tanh(y/2) + 1); the other reads the table at the label and
  applies 1 / (1 + exp(−y)). The first law collapses the contraction to its two selected terms (the
  other terms are zero times something, which is zero for every extended real); the second is the
  half-angle form of the logistic function on the reals.
-/
import Idealize.ShloMosaic.PureOps.Ideal
import Idealize.ShloMosaic.PureOps.Ideal.Laws
import Idealize.ShloMosaic.Lib.ValueIdx
import Idealize.ShloMosaic.Lib.IdealHost

noncomputable section

namespace Cert.LabelLogistic

open Idealize.ShloMosaic Idealize.ShloMosaic.ValueIdx

abbrev SLabels : Shape := ⟨1, ![1048576]⟩
abbrev STable : Shape := ⟨2, ![128, 101]⟩
abbrev SOut : Shape := ⟨2, ![1048576, 128]⟩

/-- The class a label word names: its value as a natural number, capped at the last class. -/
def cls (w : BitVec 32) : Fin 101 := ⟨min w.toNat 100, by omega⟩

theorem cls_val_of_lt {w : BitVec 32} (h : w.toNat < 101) : (cls w).val = w.toNat := by
  unfold cls; simp only; omega

/-- The logistic function on the extended reals, as the quotient 1 / (1 + exp(−y)). -/
def logistic (y : EReal) : EReal := Ideal.div 1 (1 + Ideal.exp (-y))

/-- THE RESULT: entry (b, o) is the logistic function of the table's entry at row o and the class
    that label b names. -/
def G (x : SLabels.Idx → BitVec 32) (W : STable.Idx → EReal) : SOut.Idx → EReal :=
  fun j => logistic (W (ix2 (j 1) (cls (x (ix1 (j 0))))))

theorem G_apply (x : SLabels.Idx → BitVec 32) (W : STable.Idx → EReal) (b : Fin 1048576) (o : Fin 128) :
    G x W (ix2 b o) = logistic (W (ix2 o (cls (x (ix1 b))))) := rfl

/-! ## The half-angle form of the logistic function -/

/-- The word 0x3F000000 is one half. -/
theorem ofBits_half_f32 : Ideal.ofBits .f32 0x3F000000#32 = ((1 / 2 : ℝ) : EReal) := by
  simp [Ideal.ofBits, Ideal.ieee]
  rw [← EReal.coe_mul]
  exact congrArg _ (by norm_num)

/-- On the reals, (1/2)(tanh(r/2) + 1) = 1 / (1 + exp(−r)): with a = exp(r/2), the left side is
    a / (a + 1/a) and the right side 1 / (1 + 1/a²). -/
theorem half_tanh_real (r : ℝ) : 1 / 2 * (Real.tanh (1 / 2 * r) + 1) = 1 / (1 + Real.exp (-r)) := by
  rw [Real.tanh_eq_sinh_div_cosh, Real.sinh_eq, Real.cosh_eq]
  have e : Real.exp (-r) = Real.exp (-(1 / 2 * r)) * Real.exp (-(1 / 2 * r)) := by
    rw [← Real.exp_add]; congr 1; ring
  have hpos := Real.exp_pos (1 / 2 * r)
  rw [e, Real.exp_neg]
  field_simp
  ring

/-- The same on the extended reals at a finite argument, with the two constants as their words. -/
theorem half_tanh (r : ℝ) :
    Ideal.ofBits .f32 0x3F000000#32 * (Ideal.tanh (Ideal.ofBits .f32 0x3F000000#32 * (r : EReal)) + Ideal.ofBits .f32 0x3F800000#32)
      = logistic (r : EReal) := by
  rw [ofBits_half_f32, Ideal.ofBits_one_f32, ← EReal.coe_mul]
  unfold logistic
  rw [← EReal.coe_neg]
  show ((1 / 2 : ℝ) : EReal) * (((Real.tanh (1 / 2 * r) : ℝ) : EReal) + 1) = Ideal.div 1 (1 + ((Real.exp (-r) : ℝ) : EReal))
  rw [← EReal.coe_one, ← EReal.coe_add, ← EReal.coe_add, ← EReal.coe_mul,
    Ideal.div_coe (ne_of_gt (by positivity)), ← EReal.coe_mul, half_tanh_real, one_mul]

/-! ## The contraction against an indicator written twice -/

/-- A sum over 256 positions of (indicator of "position mod 128 = n") times v is v n + v (128 + n):
    every other term is zero times an extended real. -/
theorem sum_two_hot (n : ℕ) (hn : n < 128) (a v : Fin 256 → EReal)
    (ha : ∀ k : Fin 256, a k = if k.val % 128 = n then 1 else 0) :
    ∑ k : Fin 256, a k * v k = v ⟨n, by omega⟩ + v ⟨128 + n, by omega⟩ := by
  rw [Finset.sum_eq_add (⟨n, by omega⟩ : Fin 256) (⟨128 + n, by omega⟩ : Fin 256)]
  · rw [ha, ha, if_pos (by show n % 128 = n; omega), if_pos (by show (128 + n) % 128 = n; omega), one_mul, one_mul]
  · intro h; have := congrArg Fin.val h; simp at this
  · intro k _ hk
    have hne : ¬ k.val % 128 = n := by
      intro h
      have hk' := k.isLt
      rcases Nat.lt_or_ge k.val 128 with h1 | h1
      · exact hk.1 (Fin.ext (by show k.val = n; omega))
      · exact hk.2 (Fin.ext (by show k.val = 128 + n; omega))
    rw [ha, if_neg hne, zero_mul]
  · intro h; exact absurd (Finset.mem_univ _) h
  · intro h; exact absurd (Finset.mem_univ _) h

/-- A finite entry plus (itself minus itself) is itself. -/
theorem add_sub_self_real (r : ℝ) : (r : EReal) + ((r : EReal) - (r : EReal)) = (r : EReal) := by
  rw [← EReal.coe_sub, sub_self, EReal.coe_zero, add_zero]

end Cert.LabelLogistic

end
-- ==== Proof.KernelPayload.lean ====
/-
  What one grid point stores, entry by entry.

  The body receives a block of 8192 labels and the 128 × 256 table. It builds the 128 × 8192 array whose
  entry (k, p) is 1 when row number k equals label p and 0 otherwise (a comparison of the row iota with
  the labels laid along the lanes, widened and converted), stacks that array on itself to 256 rows, and
  contracts the stacked rows against the table's columns: entry (p, o) of the product is the sum over
  k < 256 of stacked[k, p] · table[o, k]. Only k = label and k = 128 + label contribute, so the product
  is table[o, label] + table[o, 128 + label]. The body then stores (1/2)(tanh((1/2) · product) + 1).
-/
import proofs.«430570_j2662879723598_3_alg».proof.Proof.Gen.KernelIdeal.Skeleton
import proofs.«430570_j2662879723598_3_alg».proof.Proof.Spec
import proofs.«430570_j2662879723598_3_alg».proof.Proof.Words
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Payload

open Cert.KernelIdeal Cert.KernelIdeal.Gen Idealize.ShloMosaic Idealize.ShloMosaic.ValueIdx
open Cert.LabelLogistic

/-! ## The indicator array -/

/-- Entry (k, p) is 1 when row number k equals label p, else 0. -/
def oneHot (xb : IVec S8192 32) : FVec Ideal S128x8192 .bf16 :=
  truncf .bf16 (sitofp .f32 (extui 32 (cmpi .eq (iota .tc S128x8192 32 [0] iota_S128x8192_d0_w32)
    (broadcastTo S128x8192 (shapeCast S1x8192 (shapeCast S8192 xb shapeCasts_S8192_S8192) shapeCasts_S8192_S1x8192)
      broadcasts_S1x8192_S128x8192)) natLt_1_32)) bitsLt_bf16_f32

/-- The indicator array stacked on itself: 256 rows. -/
def oneHot2 (xb : IVec S8192 32) : FVec Ideal S256x8192 .bf16 :=
  concatenate S256x8192 0 [⟨S128x8192, oneHot xb⟩, ⟨S128x8192, oneHot xb⟩] concatenates_S128x8192_S128x8192_S256x8192_d0

/-- A one-bit word widened to 32 bits and converted is 1 or 0. -/
theorem bit_to_real (c : BitVec 1) :
    FloatOps.sitofp (F := Ideal) .f32 (c.setWidth 32) = if c = 1#1 then (1 : EReal) else 0 := by
  show (((c.setWidth 32).toInt : ℝ) : EReal) = _
  rcases (by revert c; decide : c = 0#1 ∨ c = 1#1) with rfl | rfl
  · rw [if_neg (by decide), show (BitVec.setWidth 32 (0#1)).toInt = 0 by decide]; simp
  · rw [if_pos rfl, show (BitVec.setWidth 32 (1#1)).toInt = 1 by decide]; simp

/-- The labels laid along the lanes of a one-row array, read at lane p. -/
theorem lanes_apply (xb : IVec S8192 32) (p : Fin 8192) :
    shapeCast S1x8192 (shapeCast S8192 xb shapeCasts_S8192_S8192) shapeCasts_S8192_S1x8192 (ix2 (0 : Fin 1) p) = xb (ix1 p) := by
  rw [shapeCast_self]
  refine (shapeCast_addUnit_apply ![8192] xb shapeCasts_S8192_S1x8192 (ix2 (0 : Fin 1) p)).trans (congrArg xb ?_)
  funext a
  match a with
  | ⟨0, _⟩ => rfl

theorem oneHot_apply (xb : IVec S8192 32) (k : Fin 128) (p : Fin 8192) :
    oneHot xb (ix2 k p) = if k.val = (xb (ix1 p)).toNat then 1 else 0 := by
  unfold oneHot
  show FloatOps.sitofp (F := Ideal) .f32 ((IntOp.cmpi .eq (iota .tc S128x8192 32 [0] iota_S128x8192_d0_w32 (ix2 k p))
    (broadcastTo S128x8192 (shapeCast S1x8192 (shapeCast S8192 xb shapeCasts_S8192_S8192) shapeCasts_S8192_S1x8192)
      broadcasts_S1x8192_S128x8192 (ix2 k p))).setWidth 32) = _
  rw [bit_to_real, iota_single_apply, broadcastTo_1b_ab_apply, lanes_apply]
  show (if IntOp.cmpi .eq (BitVec.ofNat 32 k.val) (xb (ix1 p)) = 1#1 then (1 : EReal) else 0) = _
  simp only [StableHlo.Predicate.cmpi_eq_iff, Words.ofNat_eq_iff k.val k.isLt]

theorem oneHot2_apply (xb : IVec S8192 32) (k : Fin 256) (p : Fin 8192) :
    oneHot2 xb (ix2 k p) = if k.val % 128 = (xb (ix1 p)).toNat then 1 else 0 := by
  unfold oneHot2
  have hk := k.isLt
  rcases Nat.lt_or_ge k.val 128 with h | h
  · refine (concatenate_apply_piece (t := S256x8192) 0 [⟨S128x8192, oneHot xb⟩, ⟨S128x8192, oneHot xb⟩] _ _ 0 (Nat.zero_lt_succ _)
      S128x8192 (oneHot xb) rfl rfl 0 rfl (ix2 (⟨k.val, h⟩ : Fin 128) p) (fun b hb => ?_) ?_).trans ?_
    · match b with
      | ⟨0, _⟩ => exact absurd rfl hb
      | ⟨1, _⟩ => rfl
    · show 0 + k.val = k.val; omega
    · rw [oneHot_apply, Nat.mod_eq_of_lt h]
  · refine (concatenate_apply_piece (t := S256x8192) 0 [⟨S128x8192, oneHot xb⟩, ⟨S128x8192, oneHot xb⟩] _ _ 1
      (Nat.succ_lt_succ (Nat.zero_lt_succ _)) S128x8192 (oneHot xb) rfl rfl 128 rfl
      (ix2 (⟨k.val - 128, by omega⟩ : Fin 128) p) (fun b hb => ?_) ?_).trans ?_
    · match b with
      | ⟨0, _⟩ => exact absurd rfl hb
      | ⟨1, _⟩ => rfl
    · show 128 + (k.val - 128) = k.val; omega
    · rw [oneHot_apply]
      have e : k.val % 128 = k.val - 128 := by omega
      rw [e]

/-! ## The contraction -/

theorem lhs_0 (i : S8192x128.Idx) (q : dot_S256x8192_S128x256_S8192x128_0_1_1_0_n_n.contr.Idx) : (dot_S256x8192_S128x256_S8192x128_0_1_1_0_n_n.lhsIdx i q 0).val = (q ⟨0, by decide⟩).val :=
  dot_S256x8192_S128x256_S8192x128_0_1_1_0_n_n.lhsIdx_val_of_single rfl i q

theorem lhs_1 (i : S8192x128.Idx) (q : dot_S256x8192_S128x256_S8192x128_0_1_1_0_n_n.contr.Idx) : (dot_S256x8192_S128x256_S8192x128_0_1_1_0_n_n.lhsIdx i q 1).val = (i 0).val := by
  unfold DotDims.lhsIdx
  rw [dif_neg (show ¬(1 : Fin S256x8192.rank) ∈ dot_S256x8192_S128x256_S8192x128_0_1_1_0_n_n.lhsBatch by decide),
    dif_pos (show (1 : Fin S256x8192.rank) ∈ dot_S256x8192_S128x256_S8192x128_0_1_1_0_n_n.lhsNonContracting by decide)]
  rfl

theorem rhs_0 (i : S8192x128.Idx) (q : dot_S256x8192_S128x256_S8192x128_0_1_1_0_n_n.contr.Idx) : (dot_S256x8192_S128x256_S8192x128_0_1_1_0_n_n.rhsIdx i q 0).val = (i 1).val := by
  unfold DotDims.rhsIdx
  rw [dif_neg (show ¬(0 : Fin S128x256.rank) ∈ dot_S256x8192_S128x256_S8192x128_0_1_1_0_n_n.rhsBatch by decide),
    dif_pos (show (0 : Fin S128x256.rank) ∈ dot_S256x8192_S128x256_S8192x128_0_1_1_0_n_n.rhsNonContracting by decide)]
  rfl

theorem rhs_1 (i : S8192x128.Idx) (q : dot_S256x8192_S128x256_S8192x128_0_1_1_0_n_n.contr.Idx) : (dot_S256x8192_S128x256_S8192x128_0_1_1_0_n_n.rhsIdx i q 1).val = (q ⟨0, by decide⟩).val :=
  dot_S256x8192_S128x256_S8192x128_0_1_1_0_n_n.rhsIdx_val_of_single rfl i q

/-- The product into a zero accumulator, read at (p, o): the sum over the 256 rows of left[k, p] · right[o, k]. -/
theorem product_apply (A : FVec Ideal S256x8192 .bf16) (B : FVec Ideal S128x256 .bf16) (p : Fin 8192) (o : Fin 128) :
    matmul dot_S256x8192_S128x256_S8192x128_0_1_1_0_n_n none A B (constant S8192x128 .f32 0x00000000#32) (ix2 p o)
      = ∑ k : Fin 256, A (ix2 k p) * B (ix2 o k) := by
  simp only [matmul]
  rw [Ideal.matmul_constant_zero_apply, ← Equiv.sum_comp (contrEquiv1 dot_S256x8192_S128x256_S8192x128_0_1_1_0_n_n 256 rfl rfl).symm]
  refine Finset.sum_congr rfl fun k _ => ?_
  have hk := contrEquiv1_symm_val dot_S256x8192_S128x256_S8192x128_0_1_1_0_n_n 256 rfl rfl k
  have el : dot_S256x8192_S128x256_S8192x128_0_1_1_0_n_n.lhsIdx (ix2 p o)
      ((contrEquiv1 dot_S256x8192_S128x256_S8192x128_0_1_1_0_n_n 256 rfl rfl).symm k) = ix2 k p :=
    funext fun a => Fin.ext (by
      match a with
      | ⟨0, _⟩ => exact (lhs_0 _ _).trans hk
      | ⟨1, _⟩ => exact lhs_1 _ _)
  have er : dot_S256x8192_S128x256_S8192x128_0_1_1_0_n_n.rhsIdx (ix2 p o)
      ((contrEquiv1 dot_S256x8192_S128x256_S8192x128_0_1_1_0_n_n 256 rfl rfl).symm k) = ix2 o k :=
    funext fun a => Fin.ext (by
      match a with
      | ⟨0, _⟩ => exact rhs_0 _ _
      | ⟨1, _⟩ => exact (rhs_1 _ _).trans hk)
  rw [el, er]

/-! ## The stored value -/

/-- Entry (p, o) of what a grid point stores, for a label block `xb` and a table `tb`, when label p has the
    value n < 128: one half of (tanh of half the two selected table entries' sum, plus one). -/
theorem stored_apply (xb : IVec S8192 32) (tb : FVec Ideal S128x256 .bf16) (p : Fin 8192) (o : Fin 128)
    (n : ℕ) (hn : n < 128) (hv : (xb (ix1 p)).toNat = n) :
    k0_pay1 (F := Ideal) xb tb (ix2 p o)
      = Ideal.ofBits .f32 0x3F000000#32 * (Ideal.tanh (Ideal.ofBits .f32 0x3F000000#32 *
          (tb (ix2 o (⟨n, by omega⟩ : Fin 256)) + tb (ix2 o (⟨128 + n, by omega⟩ : Fin 256))))
          + Ideal.ofBits .f32 0x3F800000#32) := by
  subst hv
  have e : k0_pay1 (F := Ideal) xb tb (ix2 p o)
      = Ideal.ofBits .f32 0x3F000000#32 * (Ideal.tanh (Ideal.ofBits .f32 0x3F000000#32 *
          matmul dot_S256x8192_S128x256_S8192x128_0_1_1_0_n_n none (oneHot2 xb)
            (shapeCast S128x256 tb shapeCasts_S128x256_S128x256) (constant S8192x128 .f32 0x00000000#32) (ix2 p o))
          + Ideal.ofBits .f32 0x3F800000#32) := rfl
  rw [e, product_apply, shapeCast_self,
    sum_two_hot (xb (ix1 p)).toNat hn (fun k => oneHot2 xb (ix2 k p)) (fun k => tb (ix2 o k)) (fun k => oneHot2_apply xb k p)]

end Cert.KernelIdeal.Payload

end
-- ==== Proof.KernelValue.lean ====
/-
  From one grid point's stores to the whole result array.

  The grid has 128 points; point t reads labels 8192·t … 8192·t + 8191 and the whole 128 × 256 table, and
  writes rows 8192·t … 8192·t + 8191 of the result. With every label in [0, 101) and every table entry a
  real number, the value stored at block position (p, o) is the logistic function of W[o, label 8192·t + p]:
  the clamp leaves the label alone, the contraction selects W[o, label] and W[o, label] − W[o, label],
  whose sum is W[o, label], and (1/2)(tanh(y/2) + 1) is the logistic function of y. The 128 blocks tile the
  rows of the result, so the array ends as the function G of the two arguments.
-/
import proofs.«430570_j2662879723598_3_alg».proof.Proof.Gen.KernelIdeal.Value
import proofs.«430570_j2662879723598_3_alg».proof.Proof.KernelHost
import proofs.«430570_j2662879723598_3_alg».proof.Proof.KernelPayload
import proofs.«430570_j2662879723598_3_alg».proof.Proof.Spec
import proofs.«430570_j2662879723598_3_alg».proof.Proof.Words
import Idealize.ShloMosaic.Lib.Pipeline.Value

noncomputable section

namespace Cert.KernelIdeal.ResultArray

open Cert.KernelIdeal Cert.KernelIdeal.Gen Cert.KernelIdeal.Value Cert.KernelIdeal.HostSide Cert.KernelIdeal.Payload
open Idealize.ShloMosaic Idealize.ShloMosaic.TcCoe Idealize.SL.Sem Idealize.ShloMosaic.ValueIdx
open Idealize.ShloMosaic.Pipeline (Dat)
open Cert.LabelLogistic

variable (m : (ℓ : Loc nD τ sig) → Buf (Elt Ideal) ℓ) (ρ : Dev nD → PrngReg)

/-- The label argument and the table argument, at their literal types. -/
abbrev labels (c : Dev nD) : IVec S1048576 32 := m ((c : Thread nD τ).loc main_arg0)
abbrev table (c : Dev nD) : FVec Ideal S128x101 .f32 := m ((c : Thread nD τ).loc main_arg1)

theorem hz1 : (![0] : Fin 1 → Nat) = fun _ => 0 := funext fun a => by fin_cases a; rfl
theorem hz2 : (![0, 0] : Fin 2 → Nat) = fun _ => 0 := funext fun a => by fin_cases a <;> rfl

/-- The block numbers, decided over the grid: the label window and the result window are at block t, the
    table window at block (0, 0). -/
theorem block_numbers : ∀ t : Fin cfg0.N, win0_0.index t (0 : Fin 1) = t.val
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 128 := Nat.lt_of_lt_of_eq t.isLt N_0

/-- Position p of the label block of point t is the clamped label 8192·t + p. -/
theorem labels_block (c : Dev nD) (t : Fin cfg0.N) (p : Fin 8192) :
    (iblk m c 0 t : Vec Ideal S8192 .i32) (ix1 p)
      = clampLabels (labels m c) (ix1 (⟨8192 * t.val + p.val, by have := point_lt t; omega⟩ : Fin 1048576)) := by
  unfold iblk
  rw [View.read_apply]
  show (V m c main_call0_v7 : IVec S1048576 32) _ = _
  rw [labels_found]
  refine congrArg _ (funext fun a => Fin.ext ?_)
  match a with
  | ⟨0, _⟩ =>
    show win0_0.index t (0 : Fin 1) * 8192 + 1 * p.val = 8192 * t.val + p.val
    rw [(block_numbers t).1]; omega

/-- Position (o, k) of the table block of any point is entry (o, k) of the two-half table. -/
theorem table_block (c : Dev nD) (t : Fin cfg0.N) (o : Fin 128) (k : Fin 256) :
    (iblk m c 1 t : Vec Ideal S128x256 .bf16) (ix2 o k) = splitTable (table m c) (ix2 o k) := by
  unfold iblk
  rw [View.read_apply]
  show (V m c main_call0_v6 : FVec Ideal S128x256 .bf16) _ = _
  rw [table_found]
  refine congrArg _ (funext fun a => Fin.ext ?_)
  obtain ⟨-, e0, e1, -, -⟩ := block_numbers t
  match a with
  | ⟨0, _⟩ => show win0_1.index t (0 : Fin 2) * 128 + 1 * o.val = o.val; rw [e0]; omega
  | ⟨1, _⟩ => show win0_1.index t (1 : Fin 2) * 256 + 1 * k.val = k.val; rw [e1]; omega

/-- THE VALUE ONE POINT STORES at block position j is G at the array position i that j lands on, for any
    label block and table block that are the clamped labels of rows 8192·t … and the two-half table. -/
theorem point_value (xb : IVec S8192 32) (tb : FVec Ideal S128x256 .bf16) (x : IVec S1048576 32)
    (W : FVec Ideal S128x101 .f32) (t : ℕ) (ht : t < 128)
    (hxb : ∀ p : Fin 8192, xb (ix1 p) = clampLabels x (ix1 (⟨8192 * t + p.val, by omega⟩ : Fin 1048576)))
    (htb : ∀ (o : Fin 128) (k : Fin 256), tb (ix2 o k) = splitTable W (ix2 o k))
    (hx : ∀ b : Fin 1048576, 0 ≤ (x (ix1 b)).toInt ∧ (x (ix1 b)).toInt < 101)
    (hW : ∀ j : S128x101.Idx, ∃ r : ℝ, W j = (r : EReal))
    (j : S8192x128.Idx) (i : S1048576x128.Idx)
    (hi0 : (i 0).val = 8192 * t + (j 0).val) (hi1 : (i 1).val = (j 1).val) :
    k0_pay1 (F := Ideal) xb tb j = G x W i := by
  obtain ⟨p, o, rfl⟩ : ∃ (p : Fin 8192) (o : Fin 128), j = ix2 p o := ⟨j 0, j 1, eq_ix2 j⟩
  have hlt : 8192 * t + p.val < 1048576 := by have := p.isLt; omega
  obtain ⟨b, o', rfl⟩ : ∃ (b : Fin 1048576) (o' : Fin 128), i = ix2 b o' := ⟨i 0, i 1, eq_ix2 i⟩
  obtain rfl : o' = o := Fin.ext hi1
  obtain rfl : b = (⟨8192 * t + p.val, hlt⟩ : Fin 1048576) := Fin.ext hi0
  obtain ⟨h0, h1⟩ := hx ⟨8192 * t + p.val, hlt⟩
  obtain ⟨hn, -⟩ := Words.toNat_of_range _ h0 h1
  have hlab : xb (ix1 p) = x (ix1 (⟨8192 * t + p.val, hlt⟩ : Fin 1048576)) := by
    rw [hxb p]; exact clampLabels_apply x _ h0 h1
  have hv : (xb (ix1 p)).toNat = (cls (x (ix1 (⟨8192 * t + p.val, hlt⟩ : Fin 1048576)))).val := by
    rw [hlab, cls_val_of_lt hn]
  obtain ⟨r, hr⟩ := hW (ix2 o' (cls (x (ix1 (⟨8192 * t + p.val, hlt⟩ : Fin 1048576)))))
  rw [stored_apply xb tb p o' _ (by have := (cls (x (ix1 (⟨8192 * t + p.val, hlt⟩ : Fin 1048576)))).isLt; omega) hv,
    htb, htb, splitTable_left, splitTable_right, G_apply, hr, add_sub_self_real, half_tanh]

/-- WHAT POINT t WRITES BACK is block t of G of the two arguments. -/
theorem flushed_eq (c : Dev nD)
    (hx : ∀ b : Fin 1048576, 0 ≤ (labels m c (ix1 b)).toInt ∧ (labels m c (ix1 b)).toInt < 101)
    (hW : ∀ j : S128x101.Idx, ∃ r : ℝ, table m c j = (r : EReal)) (t : Fin cfg0.N) :
    (dats m 0 c).flushed 2 t = ((cfg0.win 2).blk t).view.read (Elt Ideal) (G (labels m c) (table m c)) := by
  rw [flushed2]
  unfold out0_2
  rw [View.canon_unit_zero hz2]
  simp only [View.ld_unit_zero (S := S8192) hz1, View.ld_unit_zero (S := S128x256) hz2]
  funext j
  show k0_pay1 (F := Ideal) (iblk m c 0 t) (iblk m c 1 t) j = G (labels m c) (table m c) (((cfg0.win 2).blk t).view.emb j)
  obtain ⟨-, -, -, e0, e1⟩ := block_numbers t
  refine point_value (iblk m c 0 t) (iblk m c 1 t) (labels m c) (table m c) t.val (point_lt t)
    (labels_block m c t) (table_block m c t) hx hW j (((cfg0.win 2).blk t).view.emb j) ?_ ?_
  · show win0_2.index t (0 : Fin 2) * 8192 + 1 * (j 0).val = 8192 * t.val + (j 0).val
    rw [e0]; omega
  · show win0_2.index t (1 : Fin 2) * 128 + 1 * (j 1).val = (j 1).val
    rw [e1]; omega

/-- An index of the result is in point t's block iff each coordinate is in the block's range on its axis. -/
theorem mem_blk (t : Fin cfg0.N) (i : S1048576x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v0).slice (win0_2.rect t)).set ↔ _
  rw [View.set_slice_whole, Rect.mem_set_unit]
  exact Iff.rfl

/-- Every index of the result lies in the block of the point numbered (row / 8192). -/
theorem covered (i : S1048576x128.Idx) :
    ∃ t : Fin cfg0.N, (cfg0.win 2).flush t = true ∧ i ∈ ((cfg0.win 2).blk t).view.set := by
  have hi0 : (i 0).val < 1048576 := (i 0).isLt
  have hi1 : (i 1).val < 128 := (i 1).isLt
  refine ⟨⟨(i 0).val / 8192, by rw [show cfg0.N = 128 from N_0]; omega⟩, flush0_2 _, ?_⟩
  rw [mem_blk]
  obtain ⟨-, -, -, e0, e1⟩ := block_numbers ⟨(i 0).val / 8192, by rw [show cfg0.N = 128 from N_0]; omega⟩
  intro a
  match a with
  | ⟨0, _⟩ =>
    show win0_2.index _ (0 : Fin 2) * 8192 ≤ (i 0).val ∧ (i 0).val < win0_2.index _ (0 : Fin 2) * 8192 + 8192
    rw [e0]; show (i 0).val / 8192 * 8192 ≤ (i 0).val ∧ (i 0).val < (i 0).val / 8192 * 8192 + 8192; omega
  | ⟨1, _⟩ =>
    show win0_2.index _ (1 : Fin 2) * 128 ≤ (i 1).val ∧ (i 1).val < win0_2.index _ (1 : Fin 2) * 128 + 128
    rw [e1]; omega

/-- THE RESULT ARRAY after the run is G of the two arguments. -/
theorem final (c : Dev nD)
    (hx : ∀ b : Fin 1048576, 0 ≤ (labels m c (ix1 b)).toInt ∧ (labels m c (ix1 b)).toInt < 101)
    (hW : ∀ j : S128x101.Idx, ∃ r : ℝ, table m c j = (r : EReal)) :
    (dats m 0 c).arrAt 2 cfg0.N = G (labels m c) (table m c) :=
  (dats m 0 c).arrAt_eq_of_cover 2 (G (labels m c) (table m c)) (fun t _ => flushed_eq m c hx hW t) covered

/-- The run, read: the result at G of the arguments, the arguments unchanged. -/
theorem run
    (hx : ∀ (c : Dev nD) (b : Fin 1048576), 0 ≤ (labels m c (ix1 b)).toInt ∧ (labels m c (ix1 b)).toInt < 101)
    (hW : ∀ (c : Dev nD) (j : S128x101.Idx), ∃ r : ℝ, table m c j = (r : EReal)) :
    θ_run defs (onTc (τ := τ) (main (F := Ideal))) ⟨m, fun _ => 0, ρ⟩ fun r => ∀ c : Dev nD,
      r.2.mem ((c : Thread nD τ).loc main_v0) = G (labels m c) (table m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c) (hW c)), (h c).2⟩)
    (run_blocks m ρ)

end Cert.KernelIdeal.ResultArray

end
-- ==== Proof.RefRun.lean ====
/-
  The reference program's @main as one straight line of host operations, and what its run leaves.

  @main transposes the table W (128 rows by 101 classes) to 101 by 128, calls the row-lookup function
  on it and the label vector x, and applies 1 / (1 + exp(−·)) to what comes back. The lookup function
  wraps a negative label by adding the class count 101 (a three-way choice, itself a function of one
  operation), views the wrapped labels as a column, tests 0 ≤ label ≤ 100 entrywise, folds that test
  with 'and' over the column's single entry, gathers one row of the transposed table per label, and keeps
  the gathered row where the test holds, a not-a-number constant elsewhere.

  Both calls are unfolded in place: the callee's operations are listed at the call site over the buffers
  the call owns. The whole program is then thirty-two operations, each writing a buffer of its own, and the
  result buffer's final contents are the operations' composition applied to the two argument buffers ('out').
-/
import proofs.«430570_j2662879723598_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's thirty-two operations in order, each at its own buffer. The first is the transpose; the next
    twenty-three are the row lookup's, at the buffers of its call (the seventh of them is the wrap's choice,
    the one operation of the function the lookup itself calls, at that inner call's buffer); the last eight
    are the negation, the exponential, the two broadcast ones, the sum and the quotient. -/
abbrev ops : List (HloOp τ sig (Elt F)) :=
  [ unary main_arg1 main_v0 ((transpose S101x128 [1, 0] · transposes_S128x101_S101x128_1_0) : (⟨S128x101, .f32⟩ : BufTy).Contents (Elt F) → (⟨S101x128, .f32⟩ : BufTy).Contents (Elt F)),
    -- the row lookup: a negative label is wrapped by the class count
    nullary main_call0_c (constantI S_ 32 0#32),
    unary main_call0_c main_call0_v0 (broadcastInDim S1048576 ![] bcast_S_S1048576 : IVec S_ 32 → IVec S1048576 32),
    binary main_arg0 main_call0_v0 main_call0_v1 (cmpi .slt : IVec S1048576 32 → IVec S1048576 32 → IVec S1048576 1),
    nullary main_call0_c_0 (constantI S_ 32 101#32),
    unary main_call0_c_0 main_call0_v2 (broadcastInDim S1048576 ![] bcast_S_S1048576 : IVec S_ 32 → IVec S1048576 32),
    binary main_arg0 main_call0_v2 main_call0_v3 (addi : IVec S1048576 32 → IVec S1048576 32 → IVec S1048576 32),
    ternary main_call0_v1 main_call0_v3 main_arg0 main_call0_v4 (select : IVec S1048576 1 → IVec S1048576 32 → IVec S1048576 32 → IVec S1048576 32),
    -- the wrapped labels as a column, and the test 0 ≤ label ≤ 100 on it
    unary main_call0_v4 main_call0_v5 (broadcastInDim S1048576x1 ![0] bcast_S1048576_S1048576x1_0 : IVec S1048576 32 → IVec S1048576x1 32),
    nullary main_call0_c_1 (constantI S1 32 100#32),
    nullary main_call0_c_2 (constantI S_ 32 0#32),
    unary main_call0_c_2 main_call0_v6 (broadcastInDim S1048576x1 ![] bcast_S_S1048576x1 : IVec S_ 32 → IVec S1048576x1 32),
    binary main_call0_v5 main_call0_v6 main_call0_v7 (cmpi .sge : IVec S1048576x1 32 → IVec S1048576x1 32 → IVec S1048576x1 1),
    unary main_call0_c_1 main_call0_v8 (broadcastInDim S1x1 ![1] bcast_S1_S1x1_1 : IVec S1 32 → IVec S1x1 32),
    unary main_call0_v8 main_call0_v9 (broadcastInDim S1048576x1 ![0, 1] bcast_S1x1_S1048576x1_0_1 : IVec S1x1 32 → IVec S1048576x1 32),
    binary main_call0_v5 main_call0_v9 main_call0_v10 (cmpi .sle : IVec S1048576x1 32 → IVec S1048576x1 32 → IVec S1048576x1 1),
    binary main_call0_v7 main_call0_v10 main_call0_v11 (andi : IVec S1048576x1 1 → IVec S1048576x1 1 → IVec S1048576x1 1),
    nullary main_call0_c_3 (constantI S_ 1 1#1),
    binary main_call0_v11 main_call0_c_3 main_call0_v12 (fun (x : IVec S1048576x1 1) (v : IVec S_ 1) => Host.reduce IntOp.andi x v reducesTo_S1048576x1_S1048576_d1 h_S_),
    -- one row of the transposed table per label, kept where the test holds
    binary main_v0 main_call0_v5 main_call0_v13 (fun (x : FVec F S101x128 .f32) (i : IVec S1048576x1 32) => Host.gather gather_S101x128_S1048576x1_S1048576x128_1_0_n_n_0_1_1128 x i),
    unary main_call0_v12 main_call0_v14 (broadcastInDim S1048576x128 ![0] bcast_S1048576_S1048576x128_0 : IVec S1048576 1 → IVec S1048576x128 1),
    nullary main_call0_cst (constant S_ .f32 0x7FC00000#32),
    unary main_call0_cst main_call0_v15 (broadcastInDim S1048576x128 ![] bcast_S_S1048576x128 : FVec F S_ .f32 → FVec F S1048576x128 .f32),
    ternary main_call0_v14 main_call0_v13 main_call0_v15 main_v1 (select : IVec S1048576x128 1 → FVec F S1048576x128 .f32 → FVec F S1048576x128 .f32 → FVec F S1048576x128 .f32),
    -- 1 / (1 + exp(−·))
    unary main_v1 main_v2 (Host.negf : (⟨S1048576x128, .f32⟩ : BufTy).Contents (Elt F) → (⟨S1048576x128, .f32⟩ : BufTy).Contents (Elt F)),
    unary main_v2 main_v3 (Host.exp : (⟨S1048576x128, .f32⟩ : BufTy).Contents (Elt F) → (⟨S1048576x128, .f32⟩ : BufTy).Contents (Elt F)),
    nullary main_cst (constant S_ .f32 0x3F800000#32),
    unary main_cst main_v4 (broadcastInDim S1048576x128 ![] bcast_S_S1048576x128 : (⟨S_, .f32⟩ : BufTy).Contents (Elt F) → (⟨S1048576x128, .f32⟩ : BufTy).Contents (Elt F)),
    binary main_v4 main_v3 main_v5 (addf : (⟨S1048576x128, .f32⟩ : BufTy).Contents (Elt F) → (⟨S1048576x128, .f32⟩ : BufTy).Contents (Elt F) → (⟨S1048576x128, .f32⟩ : BufTy).Contents (Elt F)),
    nullary main_cst_0 (constant S_ .f32 0x3F800000#32),
    unary main_cst_0 main_v6 (broadcastInDim S1048576x128 ![] bcast_S_S1048576x128 : (⟨S_, .f32⟩ : BufTy).Contents (Elt F) → (⟨S1048576x128, .f32⟩ : BufTy).Contents (Elt F)),
    binary main_v6 main_v5 main_v7 (Host.divf : (⟨S1048576x128, .f32⟩ : BufTy).Contents (Elt F) → (⟨S1048576x128, .f32⟩ : BufTy).Contents (Elt F) → (⟨S1048576x128, .f32⟩ : BufTy).Contents (Elt F)) ]

/-- The same thirty-two operations as they stand in the program's text: the two functions' operations over
    the typed references of their calls' buffer records. -/
abbrev opsT : List (HloOp τ sig (Elt F)) :=
  [ unary main_arg1 main_v0 ((transpose S101x128 [1, 0] · transposes_S128x101_S101x128_1_0) : (⟨S128x101, .f32⟩ : BufTy).Contents (Elt F) → (⟨S101x128, .f32⟩ : BufTy).Contents (Elt F)),
    TRef.nullary main_call0.c (constantI S_ 32 0#32),
    TRef.unary main_call0.c main_call0.v0 (broadcastInDim S1048576 ![] bcast_S_S1048576),
    TRef.binary (.of main_arg0 : TRef sig ⟨S1048576, .i32⟩) main_call0.v0 main_call0.v1 (cmpi .slt),
    TRef.nullary main_call0.c_0 (constantI S_ 32 101#32),
    TRef.unary main_call0.c_0 main_call0.v2 (broadcastInDim S1048576 ![] bcast_S_S1048576),
    TRef.binary (.of main_arg0 : TRef sig ⟨S1048576, .i32⟩) main_call0.v2 main_call0.v3 addi,
    TRef.ternary main_call0.v1 main_call0.v3 (.of main_arg0 : TRef sig ⟨S1048576, .i32⟩) main_call0.call0.v0 select,
    TRef.unary main_call0.call0.v0 main_call0.v5 (broadcastInDim S1048576x1 ![0] bcast_S1048576_S1048576x1_0),
    TRef.nullary main_call0.c_1 (constantI S1 32 100#32),
    TRef.nullary main_call0.c_2 (constantI S_ 32 0#32),
    TRef.unary main_call0.c_2 main_call0.v6 (broadcastInDim S1048576x1 ![] bcast_S_S1048576x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1048576x1 ![0, 1] bcast_S1x1_S1048576x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1048576x1_S1048576_d1 h_S_),
    TRef.binary (.of main_v0 : TRef sig ⟨S101x128, .f32⟩) main_call0.v5 main_call0.v13 (fun x i => Host.gather gather_S101x128_S1048576x1_S1048576x128_1_0_n_n_0_1_1128 x i),
    TRef.unary main_call0.v12 main_call0.v14 (broadcastInDim S1048576x128 ![0] bcast_S1048576_S1048576x128_0),
    TRef.nullary main_call0.cst (constant S_ .f32 0x7FC00000#32),
    TRef.unary main_call0.cst main_call0.v15 (broadcastInDim S1048576x128 ![] bcast_S_S1048576x128),
    TRef.ternary main_call0.v14 main_call0.v13 main_call0.v15 main_call0.v16 select,
    unary main_v1 main_v2 (Host.negf : (⟨S1048576x128, .f32⟩ : BufTy).Contents (Elt F) → (⟨S1048576x128, .f32⟩ : BufTy).Contents (Elt F)),
    unary main_v2 main_v3 (Host.exp : (⟨S1048576x128, .f32⟩ : BufTy).Contents (Elt F) → (⟨S1048576x128, .f32⟩ : BufTy).Contents (Elt F)),
    nullary main_cst (constant S_ .f32 0x3F800000#32),
    unary main_cst main_v4 (broadcastInDim S1048576x128 ![] bcast_S_S1048576x128 : (⟨S_, .f32⟩ : BufTy).Contents (Elt F) → (⟨S1048576x128, .f32⟩ : BufTy).Contents (Elt F)),
    binary main_v4 main_v3 main_v5 (addf : (⟨S1048576x128, .f32⟩ : BufTy).Contents (Elt F) → (⟨S1048576x128, .f32⟩ : BufTy).Contents (Elt F) → (⟨S1048576x128, .f32⟩ : BufTy).Contents (Elt F)),
    nullary main_cst_0 (constant S_ .f32 0x3F800000#32),
    unary main_cst_0 main_v6 (broadcastInDim S1048576x128 ![] bcast_S_S1048576x128 : (⟨S_, .f32⟩ : BufTy).Contents (Elt F) → (⟨S1048576x128, .f32⟩ : BufTy).Contents (Elt F)),
    binary main_v6 main_v5 main_v7 (Host.divf : (⟨S1048576x128, .f32⟩ : BufTy).Contents (Elt F) → (⟨S1048576x128, .f32⟩ : BufTy).Contents (Elt F) → (⟨S1048576x128, .f32⟩ : BufTy).Contents (Elt F)) ]

-- the reduction and the gather stay folded: the comparison never looks inside them
attribute [local irreducible] Host.reduce Host.gather in
/-- At these literal buffers a typed reference's buffer type is the value's type itself, so moving contents
    to and from the buffer is the identity and each typed operation is the plain one at the same buffers:
    the two lists agree entry by entry. -/
theorem opsT_eq : (opsT : List (HloOp τ sig (Elt F))) = ops := by
  iterate 32 (refine congrArg₂ List.cons rfl ?_)
  rfl

-- thirty-two binds re-associated: the rewrite under the chain recurses once per statement
set_option maxRecDepth 1024 in
/-- @main is that line: with the two functions' definitions unfolded at their calls and the sequencing
    re-associated it is the chain of single steps over the typed list, which is the plain list. -/
theorem main_eq (c : Dev nD) : main (F := F) c = seq ops := by
  refine Eq.trans ?_ (congrArg seq opsT_eq)
  simp only [main, fn_take.body, fn_where.body, seq, bind_assoc, pure_bind]

/-- What the line computes at the result buffer, as a function of the label vector and the table.
    'idx' is the wrapped label, 'col' the same as a column, 'ok' the range test folded over the column's
    one entry, 'rows' the gathered rows of the transposed table, 'kept' the rows where 'ok' holds. -/
def out (x : IVec S1048576 32) (W : FVec F S128x101 .f32) : FVec F S1048576x128 .f32 :=
  let Wt : FVec F S101x128 .f32 := transpose S101x128 [1, 0] W transposes_S128x101_S101x128_1_0
  let idx : IVec S1048576 32 :=
    select (cmpi .slt x (broadcastInDim S1048576 ![] bcast_S_S1048576 (constantI S_ 32 0#32)))
      (addi x (broadcastInDim S1048576 ![] bcast_S_S1048576 (constantI S_ 32 101#32))) x
  let col : IVec S1048576x1 32 := broadcastInDim S1048576x1 ![0] bcast_S1048576_S1048576x1_0 idx
  let ok : IVec S1048576 1 :=
    Host.reduce IntOp.andi
      (andi (cmpi .sge col (broadcastInDim S1048576x1 ![] bcast_S_S1048576x1 (constantI S_ 32 0#32)))
        (cmpi .sle col (broadcastInDim S1048576x1 ![0, 1] bcast_S1x1_S1048576x1_0_1
          (broadcastInDim S1x1 ![1] bcast_S1_S1x1_1 (constantI S1 32 100#32)))))
      (constantI S_ 1 1#1) reducesTo_S1048576x1_S1048576_d1 h_S_
  let rows : FVec F S1048576x128 .f32 := Host.gather gather_S101x128_S1048576x1_S1048576x128_1_0_n_n_0_1_1128 Wt col
  let kept : FVec F S1048576x128 .f32 :=
    select (broadcastInDim S1048576x128 ![0] bcast_S1048576_S1048576x128_0 ok) rows
      (broadcastInDim S1048576x128 ![] bcast_S_S1048576x128 (constant S_ .f32 0x7FC00000#32))
  Host.divf (broadcastInDim S1048576x128 ![] bcast_S_S1048576x128 (constant S_ .f32 0x3F800000#32))
    (addf (broadcastInDim S1048576x128 ![] bcast_S_S1048576x128 (constant S_ .f32 0x3F800000#32))
      (Host.exp (Host.negf kept)))

attribute [local irreducible] Host.reduce Host.gather in
set_option maxRecDepth 8192 in
/-- The line's fold read at the result buffer is 'out' of the two arguments' contents: each operation's
    result is its function's value at its own buffer and the old contents at every other one. -/
theorem out_eq (V : Valuation τ sig (Elt F)) :
    after ops V (main_v7 : DevRef τ sig) = out (V (main_arg0 : DevRef τ sig)) (V (main_arg1 : DevRef τ sig)) := by
  after_results_simp
  rfl

/-- No operation writes the label vector's buffer. -/
theorem arg0_eq (V : Valuation τ sig (Elt F)) :
    after ops V (main_arg0 : DevRef τ sig) = V (main_arg0 : DevRef τ sig) := by
  simp only [after_cons, after_nil]
  rfl

/-- No operation writes the table's buffer. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., nullary_bufs_sub .., unary_bufs_sub .., binary_bufs_sub .., nullary_bufs_sub ..,
    unary_bufs_sub .., binary_bufs_sub ..⟩

/-- On every device, for any float values, from any memory with zero counters: every weakly fair execution of
    @main terminates with the result buffer at 'out' of the two arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v7).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibGatherScatterRows.lean ====
/-
  Row gathers and row scatter-adds read at an index.

  A `stablehlo.gather` that picks whole rows of a rank-2 or rank-3 operand by one start index per
  result row (axis 0 collapsed, the other axes offset axes, slice sizes 1 × the row), and a float
  `stablehlo.scatter` with an `add` body that accumulates update rows into the operand's rows named by
  one scatter index per update row (axis 0 inserted, the other axes window axes), at the exact instance.
  Each statement takes an arbitrary dimension-number record with equations naming its fields, so it
  applies to any record whose fields are those lists by `rfl`.
-/
import Idealize.ShloMosaic.PureOps.ShapeOps
import Idealize.ShloMosaic.PureOps.Ideal
import Idealize.ShloMosaic.PureOps.Contract
import Idealize.ShloMosaic.Lib.ValueIdx
import Mathlib.Algebra.BigOperators.Group.Finset.Basic
import Mathlib.Data.Fintype.BigOperators

noncomputable section

namespace Idealize.ShloMosaic.RowsGS

open Idealize.ShloMosaic Idealize.ShloMosaic.ValueIdx

variable {N C A B E w : Nat} {α : Type}

/-! ## The row gather: the operand index a result index reads -/

/-- A signed start index that is a row number `n < N`, clamped into `[0, N − 1]`, is `n`. -/
private theorem clamp_eq {z : Int} (n : Fin N) (hz : z = (n.val : Int)) : min z.toNat (N - 1) = n.val := by
  rw [hz, Int.toNat_natCast]
  have := n.isLt
  omega

/-- Rank 2: result index `(e, c)` reads the operand at `(idx[e], c)`, the start inside the operand. -/
private theorem g2_operandIdx (wf) (idx : IVec ⟨2, ![E, 1]⟩ w) (e : Fin E) (c : Fin C) (n : Fin N)
    (hn : (idx (ix2 e 0)).toInt = (n.val : Int)) :
    (⟨[1], [0], [], [], [0], 1, ![1, C], wf⟩ : GatherDims ⟨2, ![N, C]⟩ ⟨2, ![E, 1]⟩ ⟨2, ![E, C]⟩).operandIdx
        (ix2 e c) idx = ix2 n c := by
  funext a
  refine Fin.ext ?_
  show GatherDims.start _ (ix2 e c) idx a + GatherDims.batchCoord _ (ix2 e c) a + GatherDims.offCoord _ (ix2 e c) a = _
  rw [GatherDims.batchCoord_eq_zero _ _ _ List.not_mem_nil, Nat.add_zero]
  match a with
  | ⟨0, _⟩ =>
    show GatherDims.start _ (ix2 e c) idx 0 + GatherDims.offCoord _ (ix2 e c) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1], [0], [], [], [0], 1, ![1, C], wf⟩ :
        GatherDims ⟨2, ![N, C]⟩ ⟨2, ![E, 1]⟩ ⟨2, ![E, C]⟩) (ix2 e c)
        ⟨List.idxOf (0 : Fin 2) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (by simp)]
    show GatherDims.start _ (ix2 e c) idx 1 + GatherDims.offCoord _ (ix2 e c) 1 = c.val
    rw [hs, Nat.zero_add]; rfl

/-- `x[idx]` over a rank-2 operand READ AT (e, c), the start inside the operand: the operand's row idx[e]. -/
theorem gather_rows2_apply (d : GatherDims ⟨2, ![N, C]⟩ ⟨2, ![E, 1]⟩ ⟨2, ![E, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![E, 1]⟩ w) (e : Fin E) (c : Fin C) (n : Fin N)
    (hn : (idx (ix2 e 0)).toInt = (n.val : Int)) :
    Host.gather d x idx (ix2 e c) = x (ix2 n c) := by
  obtain ⟨od, cs, ob, sb, sm, iv, ss, wf⟩ := d
  dsimp only at hod hcs hob hsb hsm hiv hss
  subst hod hcs hob hsb hsm hiv hss
  unfold Host.gather
  rw [g2_operandIdx wf idx e c n hn]

/-- Rank 3: result index `(e, a, b)` reads the operand at `(idx[e], a, b)`, the start inside the operand. -/
private theorem g3_operandIdx (wf) (idx : IVec ⟨2, ![E, 1]⟩ w) (e : Fin E) (a : Fin A) (b : Fin B) (n : Fin N)
    (hn : (idx (ix2 e 0)).toInt = (n.val : Int)) :
    (⟨[1, 2], [0], [], [], [0], 1, ![1, A, B], wf⟩ : GatherDims ⟨3, ![N, A, B]⟩ ⟨2, ![E, 1]⟩ ⟨3, ![E, A, B]⟩).operandIdx
        (ix3 e a b) idx = ix3 n a b := by
  funext k
  refine Fin.ext ?_
  show GatherDims.start _ (ix3 e a b) idx k + GatherDims.batchCoord _ (ix3 e a b) k + GatherDims.offCoord _ (ix3 e a b) k = _
  rw [GatherDims.batchCoord_eq_zero _ _ _ List.not_mem_nil, Nat.add_zero]
  match k with
  | ⟨0, _⟩ =>
    show GatherDims.start _ (ix3 e a b) idx 0 + GatherDims.offCoord _ (ix3 e a b) 0 = n.val
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[1, 2], [0], [], [], [0], 1, ![1, A, B], wf⟩ :
        GatherDims ⟨3, ![N, A, B]⟩ ⟨2, ![E, 1]⟩ ⟨3, ![E, A, B]⟩) (ix3 e a b)
        ⟨List.idxOf (0 : Fin 3) [0], List.idxOf_lt_length_iff.2 List.mem_cons_self⟩ = ix2 e 0 := by
      funext b'; refine Fin.ext ?_
      match b' with
      | ⟨0, _⟩ => rfl
      | ⟨1, _⟩ => rfl
    rw [hsi]
    exact clamp_eq n hn
  | ⟨1, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 1 = 0 := by
      unfold GatherDims.start; rw [dif_neg (by simp)]
    show GatherDims.start _ (ix3 e a b) idx 1 + GatherDims.offCoord _ (ix3 e a b) 1 = a.val
    rw [hs, Nat.zero_add]; rfl
  | ⟨2, _⟩ =>
    have hs : GatherDims.start (⟨[1, 2], [0], [], [], [0], 1, ![1, A, B], wf⟩ :
        GatherDims ⟨3, ![N, A, B]⟩ ⟨2, ![E, 1]⟩ ⟨3, ![E, A, B]⟩) (ix3 e a b) idx 2 = 0 := by
      unfold GatherDims.start; rw [dif_neg (by simp)]
    show GatherDims.start _ (ix3 e a b) idx 2 + GatherDims.offCoord _ (ix3 e a b) 2 = b.val
    rw [hs, Nat.zero_add]; rfl

/-- `x[idx]` over a rank-3 operand READ AT (e, a, b), the start inside the operand: the operand's slab idx[e]. -/
theorem gather_rows3_apply (d : GatherDims ⟨3, ![N, A, B]⟩ ⟨2, ![E, 1]⟩ ⟨3, ![E, A, B]⟩)
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![N, A, B]⟩ : Shape).Idx → α) (idx : IVec ⟨2, ![E, 1]⟩ w) (e : Fin E) (a : Fin A) (b : Fin B) (n : Fin N)
    (hn : (idx (ix2 e 0)).toInt = (n.val : Int)) :
    Host.gather d x idx (ix3 e a b) = x (ix3 n a b) := by
  obtain ⟨od, cs, ob, sb, sm, iv, ss, wf⟩ := d
  dsimp only at hod hcs hob hsb hsm hiv hss
  subst hod hcs hob hsb hsm hiv hss
  unfold Host.gather
  rw [g3_operandIdx wf idx e a b n hn]

/-! ## The row scatter: the target of an update position -/

/-- An update position lands on `i` exactly when, on every axis, the signed start plus the window
    coordinate is `i`'s coordinate. -/
private theorem resultIdx?_eq_some {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  by_cases hr : ∀ a, 0 ≤ d.start j idx a + d.window j a ∧ d.start j idx a + d.window j a < s.size a
  · rw [dif_pos hr, Option.some_inj]
    constructor
    · intro h a
      have h2 := congrArg Fin.val (congrFun h a)
      simp only at h2
      have := (hr a).1
      omega
    · intro h; funext a; apply Fin.ext; have := h a; have := (hr a).1; simp only; omega
  · rw [dif_neg hr]
    constructor
    · intro h; cases h
    · intro h; exact absurd (fun a => by have := h a; have := (i a).isLt; omega) hr

/-- The window coordinate is zero on an inserted axis. -/
private theorem window_inserted {s si u : Shape} (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
private theorem start_unaddressed {s si u : Shape} (d : ScatterDims s si u) (j : u.Idx) (idx : IVec si w) (a : Fin s.rank)
    (ha : a ∉ d.scatterDimsToOperandDims) : d.start j idx a = 0 := by
  unfold ScatterDims.start
  rw [dif_neg ha]

/-- Rank 2, row axis: the start of update `(e, c')` is the scatter index of row `e`, read signed. -/
private theorem s2_start0 (wf) (idx : IVec ⟨2, ![E, 1]⟩ w) (e : Fin E) (c' : Fin C) :
    (⟨[1], [0], [0], 1, wf⟩ : ScatterDims ⟨2, ![N, C]⟩ ⟨2, ![E, 1]⟩ ⟨2, ![E, C]⟩).start (ix2 e c') idx 0
      = (idx (ix2 e 0)).toInt := by
  unfold ScatterDims.start
  rw [dif_pos (List.mem_cons_self)]
  congr 2
  funext b'; refine Fin.ext ?_
  match b' with
  | ⟨0, _⟩ => rfl
  | ⟨1, _⟩ => rfl

/-- Rank 2, column axis: the window coordinate of update `(e, c')` is `c'`. -/
private theorem s2_window1 (wf) (e : Fin E) (c' : Fin C) :
    (⟨[1], [0], [0], 1, wf⟩ : ScatterDims ⟨2, ![N, C]⟩ ⟨2, ![E, 1]⟩ ⟨2, ![E, C]⟩).window (ix2 e c') 1 = c'.val := rfl

/-- Rank 2: update `(e, c')` lands on `(n, c)` exactly when the scatter index of row `e`, read signed, is
    `n` and `c' = c`. -/
private theorem s2_resultIdx?_iff (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (idx : IVec ⟨2, ![E, 1]⟩ w) (e : Fin E) (c' : Fin C) (n : Fin N) (c : Fin C) :
    d.resultIdx? (ix2 e c') idx = some (ix2 n c) ↔ (idx (ix2 e 0)).toInt = (n.val : Int) ∧ c' = c := by
  obtain ⟨uw, iw, sd, iv, wf⟩ := d
  dsimp only at huw hiw hsd hiv
  subst huw hiw hsd hiv
  rw [resultIdx?_eq_some]
  have w0 := window_inserted (⟨[1], [0], [0], 1, wf⟩ : ScatterDims ⟨2, ![N, C]⟩ ⟨2, ![E, 1]⟩ ⟨2, ![E, C]⟩)
    (ix2 e c') 0 List.mem_cons_self
  have s1 := start_unaddressed (⟨[1], [0], [0], 1, wf⟩ : ScatterDims ⟨2, ![N, C]⟩ ⟨2, ![E, 1]⟩ ⟨2, ![E, C]⟩)
    (ix2 e c') idx 1 (by simp)
  constructor
  · intro h
    have h0 := h 0
    have h1 := h 1
    rw [s2_start0, w0, Nat.cast_zero, Int.add_zero] at h0
    rw [s1, s2_window1, Int.zero_add] at h1
    exact ⟨h0, Fin.ext (by exact_mod_cast h1)⟩
  · rintro ⟨h0, rfl⟩ a
    match a with
    | ⟨0, _⟩ =>
      show ScatterDims.start _ (ix2 e c') idx 0 + ((ScatterDims.window _ (ix2 e c') 0 : Nat) : Int) = _
      rw [s2_start0, w0, Nat.cast_zero, Int.add_zero]; exact h0
    | ⟨1, _⟩ =>
      show ScatterDims.start _ (ix2 e c') idx 1 + ((ScatterDims.window _ (ix2 e c') 1 : Nat) : Int) = _
      rw [s1, s2_window1, Int.zero_add]

/-- `x.at[idx].add(upd)` over a rank-2 operand READ AT (n, c), at the exact instance: the operand's element plus
    the sum of the update rows aimed at row n (a scatter index outside the operand aims at no row). -/
theorem scatterAdd_rows2_apply (d : ScatterDims ⟨2, ![N, C]⟩ ⟨2, ![E, 1]⟩ ⟨2, ![E, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![E, 1]⟩ w) (upd : (⟨2, ![E, C]⟩ : Shape).Idx → EReal)
    (n : Fin N) (c : Fin C) :
    Host.scatterAdd (F := Ideal) (φ := .f32) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl fun e _ => ?_
  by_cases he : (idx (ix2 e 0)).toInt = (n.val : Int)
  · rw [if_pos he, Finset.sum_eq_single c]
    · rw [if_pos ((s2_resultIdx?_iff d huw hiw hsd hiv idx e c n c).2 ⟨he, rfl⟩)]
    · intro c' _ hc'
      rw [if_neg fun h => hc' ((s2_resultIdx?_iff d huw hiw hsd hiv idx e c' n c).1 h).2]
    · intro h; exact absurd (Finset.mem_univ _) h
  · rw [if_neg he]
    refine Finset.sum_eq_zero fun c' _ => ?_
    rw [if_neg fun h => he ((s2_resultIdx?_iff d huw hiw hsd hiv idx e c' n c).1 h).1]

/-- A rank-3 index set is the product of its three coordinate ranges … -/
private def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
private theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Rank 3, slab axis: the start of update `(e, a', b')` is the scatter index of slab `e`, read signed. -/
private theorem s3_start0 (wf) (idx : IVec ⟨2, ![E, 1]⟩ w) (e : Fin E) (a' : Fin A) (b' : Fin B) :
    (⟨[1, 2], [0], [0], 1, wf⟩ : ScatterDims ⟨3, ![N, A, B]⟩ ⟨2, ![E, 1]⟩ ⟨3, ![E, A, B]⟩).start (ix3 e a' b') idx 0
      = (idx (ix2 e 0)).toInt := by
  unfold ScatterDims.start
  rw [dif_pos (List.mem_cons_self)]
  congr 2
  funext k; refine Fin.ext ?_
  match k with
  | ⟨0, _⟩ => rfl
  | ⟨1, _⟩ => rfl

/-- Rank 3, second axis: the window coordinate of update `(e, a', b')` is `a'`. -/
private theorem s3_window1 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 1 = a'.val := rfl

/-- Rank 3, third axis: the window coordinate of update `(e, a', b')` is `b'`. -/
private theorem s3_window2 (wf) (e : Fin E) (a' : Fin A) (b' : Fin B) :
    (⟨[1, 2], [0], [0], 1, wf⟩ : ScatterDims ⟨3, ![N, A, B]⟩ ⟨2, ![E, 1]⟩ ⟨3, ![E, A, B]⟩).window (ix3 e a' b') 2 = b'.val := rfl

/-- Rank 3: update `(e, a', b')` lands on `(n, a, b)` exactly when the scatter index of slab `e`, read
    signed, is `n`, `a' = a` and `b' = b`. -/
private theorem s3_resultIdx?_iff (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (idx : IVec ⟨2, ![E, 1]⟩ w) (e : Fin E) (a' : Fin A) (b' : Fin B) (n : Fin N) (a : Fin A) (b : Fin B) :
    d.resultIdx? (ix3 e a' b') idx = some (ix3 n a b) ↔
      (idx (ix2 e 0)).toInt = (n.val : Int) ∧ a' = a ∧ b' = b := by
  obtain ⟨uw, iw, sd, iv, wf⟩ := d
  dsimp only at huw hiw hsd hiv
  subst huw hiw hsd hiv
  rw [resultIdx?_eq_some]
  have w0 := window_inserted (⟨[1, 2], [0], [0], 1, wf⟩ : ScatterDims ⟨3, ![N, A, B]⟩ ⟨2, ![E, 1]⟩ ⟨3, ![E, A, B]⟩)
    (ix3 e a' b') 0 List.mem_cons_self
  have s1 := start_unaddressed (⟨[1, 2], [0], [0], 1, wf⟩ : ScatterDims ⟨3, ![N, A, B]⟩ ⟨2, ![E, 1]⟩ ⟨3, ![E, A, B]⟩)
    (ix3 e a' b') idx 1 (by simp)
  have s2 := start_unaddressed (⟨[1, 2], [0], [0], 1, wf⟩ : ScatterDims ⟨3, ![N, A, B]⟩ ⟨2, ![E, 1]⟩ ⟨3, ![E, A, B]⟩)
    (ix3 e a' b') idx 2 (by simp)
  constructor
  · intro h
    have h0 := h 0
    have h1 := h 1
    have h2 := h 2
    rw [s3_start0, w0, Nat.cast_zero, Int.add_zero] at h0
    rw [s1, s3_window1, Int.zero_add] at h1
    rw [s2, s3_window2, Int.zero_add] at h2
    exact ⟨h0, Fin.ext (by exact_mod_cast h1), Fin.ext (by exact_mod_cast h2)⟩
  · rintro ⟨h0, rfl, rfl⟩ k
    match k with
    | ⟨0, _⟩ =>
      show ScatterDims.start _ (ix3 e a' b') idx 0 + ((ScatterDims.window _ (ix3 e a' b') 0 : Nat) : Int) = _
      rw [s3_start0, w0, Nat.cast_zero, Int.add_zero]; exact h0
    | ⟨1, _⟩ =>
      show ScatterDims.start _ (ix3 e a' b') idx 1 + ((ScatterDims.window _ (ix3 e a' b') 1 : Nat) : Int) = _
      rw [s1, s3_window1, Int.zero_add]
    | ⟨2, _⟩ =>
      show ScatterDims.start _ (ix3 e a' b') idx 2 + ((ScatterDims.window _ (ix3 e a' b') 2 : Nat) : Int) = _
      rw [s2, s3_window2, Int.zero_add]

/-- `x.at[idx].add(upd)` over a rank-3 operand READ AT (n, a, b), at the exact instance. -/
theorem scatterAdd_rows3_apply (d : ScatterDims ⟨3, ![N, A, B]⟩ ⟨2, ![E, 1]⟩ ⟨3, ![E, A, B]⟩)
    (huw : d.updateWindowDims = [1, 2]) (hiw : d.insertedWindowDims = [0])
    (hsd : d.scatterDimsToOperandDims = [0]) (hiv : d.indexVectorDim = 1)
    (x : (⟨3, ![N, A, B]⟩ : Shape).Idx → EReal) (idx : IVec ⟨2, ![E, 1]⟩ w) (upd : (⟨3, ![E, A, B]⟩ : Shape).Idx → EReal)
    (n : Fin N) (a : Fin A) (b : Fin B) :
    Host.scatterAdd (F := Ideal) (φ := .f32) d x idx upd (ix3 n a b)
      = x (ix3 n a b) + ∑ e : Fin E, if (idx (ix2 e 0)).toInt = (n.val : Int) then upd (ix3 e a b) else 0 := by
  unfold Host.scatterAdd
  rw [Ideal.hostScatterAdd_def]
  unfold Ideal.hostScatterAdd
  congr 1
  rw [Finset.sum_filter, sum_idx3]
  refine Finset.sum_congr rfl fun e _ => ?_
  by_cases he : (idx (ix2 e 0)).toInt = (n.val : Int)
  · rw [if_pos he, Finset.sum_eq_single a]
    · rw [Finset.sum_eq_single b]
      · rw [if_pos ((s3_resultIdx?_iff d huw hiw hsd hiv idx e a b n a b).2 ⟨he, rfl, rfl⟩)]
      · intro b' _ hb'
        rw [if_neg fun h => hb' ((s3_resultIdx?_iff d huw hiw hsd hiv idx e a b' n a b).1 h).2.2]
      · intro h; exact absurd (Finset.mem_univ _) h
    · intro a' _ ha'
      refine Finset.sum_eq_zero fun b' _ => ?_
      rw [if_neg fun h => ha' ((s3_resultIdx?_iff d huw hiw hsd hiv idx e a' b' n a b).1 h).2.1]
    · intro h; exact absurd (Finset.mem_univ _) h
  · rw [if_neg he]
    refine Finset.sum_eq_zero fun a' _ => Finset.sum_eq_zero fun b' _ => ?_
    rw [if_neg fun h => he ((s3_resultIdx?_iff d huw hiw hsd hiv idx e a' b' n a b).1 h).1]

end Idealize.ShloMosaic.RowsGS

end
-- ==== Proof.RefValue.lean ====
/-
  The value of the reference's result, entry by entry.

  The reference looks up, for each sample, one row of the transposed table by the sample's label, after
  wrapping a negative label by the class count and masking a label outside 0 … 100 with a not-a-number
  constant; then it applies 1 / (1 + exp(−·)). Under the hypothesis that every label, read as a signed
  word, lies in 0 … 100, the wrap is the identity (no label is negative), the mask is 1 everywhere (each
  label passes the range test, so the 'and' over the one-entry column is 1), and the gather reads the row
  the label names. The transposed table's row n at column o is the table's entry (o, n). So entry (b, o)
  of the result is 1 / (1 + exp(−W[o, label b])), which is the specification's function.
-/
import proofs.«430570_j2662879723598_3_alg».proof.Proof.RefRun
import proofs.«430570_j2662879723598_3_alg».proof.Proof.Spec
import proofs.«430570_j2662879723598_3_alg».proof.Proof.LibGatherScatterRows
import Idealize.ShloMosaic.Lib.ValueIdx
import Idealize.ShloMosaic.Lib.IdealHost
import Idealize.ShloMosaic.Lib.ValueLayout
import Idealize.ShloMosaic.Lib.Pipeline.Value
import Idealize.ShloMosaic.Lib.StableHlo.Predicate
import Idealize.ShloMosaic.PureOps.Reduce

noncomputable section

namespace Cert.ReferenceIdeal.RefValue

open Cert.ReferenceIdeal Cert.ReferenceIdeal.Gen Idealize.ShloMosaic Idealize.ShloMosaic.ValueIdx
open Idealize.ShloMosaic.StableHlo (Predicate.slt_iff_toNat Predicate.sge_iff_toNat Predicate.sle_iff_toNat)

/-! ## Layout operations read at an index -/

/-- A vector viewed as a one-entry-wide column reads, at row b, the vector at b. -/
theorem column_apply {α : Type} (v : S1048576.Idx → α) (b : Fin 1048576) (z : Fin 1) :
    broadcastInDim S1048576x1 ![0] bcast_S1048576_S1048576x1_0 v (ix2 b z) = v (ix1 b) := by
  refine broadcastInDim_apply _ _ v (ix2 b z) (ix1 b) fun a => ?_
  match a with
  | ⟨0, _⟩ => rw [if_neg (by show ¬ (1048576 : ℕ) = 1; omega)]; rfl

/-- A vector repeated along 128 columns reads, at (b, o), the vector at b. -/
theorem rows_apply {α : Type} (v : S1048576.Idx → α) (b : Fin 1048576) (o : Fin 128) :
    broadcastInDim S1048576x128 ![0] bcast_S1048576_S1048576x128_0 v (ix2 b o) = v (ix1 b) := by
  refine broadcastInDim_apply _ _ v (ix2 b o) (ix1 b) fun a => ?_
  match a with
  | ⟨0, _⟩ => rw [if_neg (by show ¬ (1048576 : ℕ) = 1; omega)]; rfl

/-- The transposed table at (n, o) is the table at (o, n). -/
theorem transposed_apply {α : Type} (W : S128x101.Idx → α) (n : Fin 101) (o : Fin 128) :
    transpose S101x128 [1, 0] W transposes_S128x101_S101x128_1_0 (ix2 n o) = W (ix2 o n) := by
  refine transpose_apply _ W _ (ix2 n o) (ix2 o n) fun b => ?_
  match b with
  | ⟨0, _⟩ => rfl
  | ⟨1, _⟩ => rfl

/-! ## The 'and' reduction of an array of ones -/

/-- A left fold by 'and' that starts at 1 and meets only 1s ends at 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem a hn)

/-- A reduction by 'and' of an array that is 1 everywhere, from the initial value 1, is 1 everywhere. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_ones x _ fun i _ => hx i

/-! ## A label word in range -/

/-- A 32-bit word whose signed value lies in [0, 101) has that value as its unsigned value. -/
theorem word_of_range (w : BitVec 32) (h0 : 0 ≤ w.toInt) (h1 : w.toInt < 101) :
    w.toNat < 101 ∧ w.toInt = (w.toNat : Int) := by
  have hw := w.isLt
  have key := BitVec.toInt_eq_toNat_cond w
  split_ifs at key with hlt <;> omega

/-- The wrap leaves a word in range alone: it is not negative, so the choice takes the word itself. -/
theorem wrap_id (w a : BitVec 32) (hw : w.toNat < 101) :
    Scalar.select (IntOp.cmpi .slt w 0#32) a w = w := by
  have hz : IntOp.cmpi .slt w 0#32 = 0#1 :=
    eq_zero_of_ne_one fun h => Nat.not_lt_zero _ ((Predicate.slt_iff_toNat (by omega) (by decide)).1 h)
  rw [hz, select_zero]

/-- A word in range passes the test 0 ≤ · ≤ 100. -/
theorem in_range (w : BitVec 32) (hw : w.toNat < 101) :
    IntOp.andi (IntOp.cmpi .sge w 0#32) (IntOp.cmpi .sle w 100#32) = 1#1 := by
  have h100 : (100#32 : BitVec 32).toNat = 100 := by decide
  rw [(Predicate.sge_iff_toNat (by omega) (by decide)).2 (Nat.zero_le _),
    (Predicate.sle_iff_toNat (by omega) (by decide)).2 (by rw [h100]; omega)]
  decide

/-! ## The result's pieces, named -/

/-- The wrapped labels: a negative label plus the class count, any other label itself. -/
def wrapped (x : IVec S1048576 32) : IVec S1048576 32 :=
  select (cmpi .slt x (broadcastInDim S1048576 ![] bcast_S_S1048576 (constantI S_ 32 0#32)))
    (addi x (broadcastInDim S1048576 ![] bcast_S_S1048576 (constantI S_ 32 101#32))) x

/-- The wrapped labels as a column. -/
def column (x : IVec S1048576 32) : IVec S1048576x1 32 :=
  broadcastInDim S1048576x1 ![0] bcast_S1048576_S1048576x1_0 (wrapped x)

/-- The test 0 ≤ label ≤ 100, entry by entry on the column. -/
def tested (x : IVec S1048576 32) : IVec S1048576x1 1 :=
  andi (cmpi .sge (column x) (broadcastInDim S1048576x1 ![] bcast_S_S1048576x1 (constantI S_ 32 0#32)))
    (cmpi .sle (column x) (broadcastInDim S1048576x1 ![0, 1] bcast_S1x1_S1048576x1_0_1
      (broadcastInDim S1x1 ![1] bcast_S1_S1x1_1 (constantI S1 32 100#32))))

/-- The test folded with 'and' over the column's one entry. -/
def ok (x : IVec S1048576 32) : IVec S1048576 1 :=
  Host.reduce IntOp.andi (tested x) (constantI S_ 1 1#1) reducesTo_S1048576x1_S1048576_d1 h_S_

/-- The gathered rows of the transposed table, kept where the test holds, the not-a-number constant elsewhere. -/
def kept (x : IVec S1048576 32) (W : FVec Ideal S128x101 .f32) : FVec Ideal S1048576x128 .f32 :=
  select (broadcastInDim S1048576x128 ![0] bcast_S1048576_S1048576x128_0 (ok x))
    (Host.gather gather_S101x128_S1048576x1_S1048576x128_1_0_n_n_0_1_1128
      (transpose S101x128 [1, 0] W transposes_S128x101_S101x128_1_0) (column x))
    (broadcastInDim S1048576x128 ![] bcast_S_S1048576x128 (constant S_ .f32 0x7FC00000#32))

/-- The result is the quotient of ones by one plus the exponential of minus the kept rows. -/
theorem out_unfold (x : IVec S1048576 32) (W : FVec Ideal S128x101 .f32) :
    RefRun.out (F := Ideal) x W
      = Host.divf (broadcastInDim S1048576x128 ![] bcast_S_S1048576x128 (constant S_ .f32 0x3F800000#32))
          (addf (broadcastInDim S1048576x128 ![] bcast_S_S1048576x128 (constant S_ .f32 0x3F800000#32))
            (Host.exp (Host.negf (kept x W)))) := rfl

/-- A quotient of one array by the sum of another and an exponential of a negation, read at an index. -/
theorem quotient_at (p q K : FVec Ideal S1048576x128 .f32) (j : S1048576x128.Idx) :
    Host.divf p (addf q (Host.exp (Host.negf K))) j = Ideal.div (p j) (q j + Ideal.exp (-(K j))) := rfl

/-- The broadcast constant one reads 1 everywhere. -/
theorem ones_at (j : S1048576x128.Idx) :
    broadcastInDim S1048576x128 ![] bcast_S_S1048576x128 (constant (F := Ideal) S_ .f32 0x3F800000#32) j = 1 := by
  rw [broadcastInDim_scalar_apply, constant_apply, Ideal.ofBits_one_f32]

/-! ## Each piece under the range hypothesis -/

section
variable (x : IVec S1048576 32)
  (hx : ∀ b : Fin 1048576, 0 ≤ (x (ix1 b)).toInt ∧ (x (ix1 b)).toInt < 101)
include hx

/-- Every label's unsigned value is below the class count. -/
theorem label_lt (b : Fin 1048576) : (x (ix1 b)).toNat < 101 := (word_of_range _ (hx b).1 (hx b).2).1

/-- The wrap changes nothing. -/
theorem wrapped_apply (b : Fin 1048576) : wrapped x (ix1 b) = x (ix1 b) :=
  wrap_id (x (ix1 b)) _ (label_lt x hx b)

/-- The column's entry in row b is label b. -/
theorem column_at (b : Fin 1048576) (z : Fin 1) : column x (ix2 b z) = x (ix1 b) := by
  unfold column
  rw [column_apply, wrapped_apply x hx]

/-- The test holds everywhere. -/
theorem tested_all (i : S1048576x1.Idx) : tested x i = 1#1 := by
  obtain ⟨p, z, rfl⟩ : ∃ (p : Fin 1048576) (z : Fin 1), i = ix2 p z := ⟨i 0, i 1, eq_ix2 i⟩
  show IntOp.andi (IntOp.cmpi .sge (column x (ix2 p z)) 0#32) (IntOp.cmpi .sle (column x (ix2 p z)) 100#32) = 1#1
  rw [column_at x hx]
  exact in_range _ (label_lt x hx p)

/-- So its fold is 1 at every sample. -/
theorem ok_apply (b : Fin 1048576) : ok x (ix1 b) = 1#1 :=
  reduce_andi_ones _ _ _ _ (fun _ => rfl) (tested_all x hx) _

/-- The kept row of sample b at feature o is the table's entry at row o and the label's class. -/
theorem kept_apply (W : FVec Ideal S128x101 .f32) (b : Fin 1048576) (o : Fin 128) :
    kept x W (ix2 b o) = W (ix2 o (Cert.LabelLogistic.cls (x (ix1 b)))) := by
  have hn : (column x (ix2 b 0)).toInt = (((Cert.LabelLogistic.cls (x (ix1 b))).val : ℕ) : Int) := by
    rw [column_at x hx, Cert.LabelLogistic.cls_val_of_lt (label_lt x hx b)]
    exact (word_of_range _ (hx b).1 (hx b).2).2
  unfold kept
  rw [select_apply, rows_apply, ok_apply x hx, select_one,
    RowsGS.gather_rows2_apply _ rfl rfl rfl rfl rfl rfl rfl _ (column x) b o (Cert.LabelLogistic.cls (x (ix1 b))) hn,
    transposed_apply]

end

/-- THE REFERENCE'S VALUE: under the range hypothesis on the labels, the reference's result is the logistic
    function of the table's entry at (feature, label's class). -/
theorem out_eq_G (x : IVec S1048576 32) (W : FVec Ideal S128x101 .f32)
    (hx : ∀ b : Fin 1048576, 0 ≤ (x (ValueIdx.ix1 b)).toInt ∧ (x (ValueIdx.ix1 b)).toInt < 101) :
    RefRun.out (F := Ideal) x W = Cert.LabelLogistic.G x W := by
  funext j
  obtain ⟨b, o, rfl⟩ : ∃ (b : Fin 1048576) (o : Fin 128), j = ix2 b o := ⟨j 0, j 1, eq_ix2 j⟩
  rw [Cert.LabelLogistic.G_apply, out_unfold, quotient_at, ones_at, kept_apply x hx]
  rfl

end Cert.ReferenceIdeal.RefValue

end
-- ==== Proof.lean ====
/-
  The certificate of the label-logistic kernel against its reference.

  Both programs take 1048576 class labels and a 128 × 101 table W and return, for sample b and feature o,
  the logistic function of W[o, label b]. The kernel clamps the labels, contracts a doubled indicator of
  each label against the table [W | W − W] (each half padded to 128 classes) and applies the logistic
  function in its half-angle form; the reference reads the table at the label and applies
  1 / (1 + exp(−y)). They agree where every label lies in [0, 101) and every entry of W is finite, which
  is the precondition: outside that label range the reference wraps or fills where the kernel clamps.

  The three frames: the two kernel programs by their launch and body runs; the reference, a program of
  host operations only, by its run with the result dropped. Nothing was rewritten when the kernel was
  idealized, so the preservation conjunct is the true proposition. The value claim: both runs end with
  the result array at one function G of the arguments (the kernel's by the block-by-block reading of its
  run, the reference's by reading its operations at an index), and the arguments agree.
-/
import proofs.«430570_j2662879723598_3_alg».proof.Defs
import proofs.«430570_j2662879723598_3_alg».proof.Proof.Gen.Kernel
import proofs.«430570_j2662879723598_3_alg».proof.Proof.Gen.Kernel.Skeleton
import proofs.«430570_j2662879723598_3_alg».proof.Proof.Gen.Kernel.Launch
import proofs.«430570_j2662879723598_3_alg».proof.Proof.Gen.Kernel.Points
import proofs.«430570_j2662879723598_3_alg».proof.Proof.Gen.Kernel.Frame
import proofs.«430570_j2662879723598_3_alg».proof.Proof.Gen.KernelIdeal
import proofs.«430570_j2662879723598_3_alg».proof.Proof.Gen.KernelIdeal.Skeleton
import proofs.«430570_j2662879723598_3_alg».proof.Proof.Gen.KernelIdeal.Launch
import proofs.«430570_j2662879723598_3_alg».proof.Proof.Gen.KernelIdeal.Points
import proofs.«430570_j2662879723598_3_alg».proof.Proof.Gen.KernelIdeal.Frame
import proofs.«430570_j2662879723598_3_alg».proof.Proof.Gen.KernelIdeal.Value
import proofs.«430570_j2662879723598_3_alg».proof.Proof.Gen.ReferenceIdeal
import proofs.«430570_j2662879723598_3_alg».proof.Proof.Gen.Pre_finite_inputs
import proofs.«430570_j2662879723598_3_alg».proof.Proof.PreFacts
import proofs.«430570_j2662879723598_3_alg».proof.Proof.KernelValue
import proofs.«430570_j2662879723598_3_alg».proof.Proof.RefRun
import proofs.«430570_j2662879723598_3_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference, host operations only, runs and leaves its arguments unchanged: its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories that agree on the labels and the table, under the precondition, both programs end with
    the result array at G of those arguments. -/
theorem algebraic : Cert.algebraic_KernelIdeal_ReferenceIdeal := by
  intro m ρ m' ρ' hpre hagree
  have hfacts := fun c => Cert.LabelLogistic.PreFacts.of_pre _ _ (hpre c)
  refine ⟨fun c => Cert.LabelLogistic.G (Cert.KernelIdeal.ResultArray.labels m c) (Cert.KernelIdeal.ResultArray.table m c),
    Cert.KernelIdeal.ResultArray.run m ρ (fun c => (hfacts c).1) (fun c => (hfacts c).2), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.out_eq_G _ _ (hfacts c).1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
